-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S512x64, .f32⟩
  | .local _ .vmem, ⟨9, _⟩ => ⟨S512x1, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x64_S32x2048x64 : S2x16x2048x64.ShapeCasts S32x2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x2048x64.size a
  hwx0_1 : ∀ i : grid0.Coords, EltTy.bits .f32 = 32 ∨ (Rect.block (s := S32x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .f32 = 32 ∨ (Rect.block (s := S32x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S2x16x2048x2048, .f32⟩
  | .hbm, ⟨14, _⟩ => ⟨S2x16x2048x2048, .f32⟩
  | .hbm, ⟨15, _⟩ => ⟨S_, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .i1⟩
  | .hbm, ⟨24, _⟩ => ⟨S2048x2048, .i1⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x16x2048x2048, .i1⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S_, .f32⟩
  | .hbm, ⟨36, _⟩ => ⟨S2x16x2048x1, .f32⟩
  | .hbm, ⟨37, _⟩ => ⟨S2x16x2048x1, .f32⟩
  | .hbm, ⟨38, _⟩ => ⟨S2x16x2048x64, .f32⟩
  | .hbm, ⟨39, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v10 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.IdealFrame.Guards.lean ====
/-
  The grid is (head, query tile qi, key tile kj) = 32 × 4 × 4, walked with kj fastest: point t has kj = t % 4 and
  qi = t / 4 % 4. The body has three guarded regions: at kj = 0 both running sums (the weighted sum of value rows and
  the row normaliser) are reset to zero; at kj ≤ qi, a key tile on or below the causal diagonal, the tile's masked
  second-order scores are added into both; at kj = 3, the last key tile, the quotient is stored into the output tile.
  Here: the three guards as the body computes them from the coordinates, their closed forms over the 512 points, where the
  output window is idle and where it is written back, the names of the staging and scratch memrefs, and the region's
  entry invariant opened into the two scratch buffers.
-/
import proofs.«144033_j29240137351228_1_alg».proof.Proof.Gen.KernelIdeal.Skeleton
import proofs.«144033_j29240137351228_1_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three guards -/

/-- kj = 0, as the body computes it: the running sums are reset. -/
abbrev resets (i : grid0.Coords) : Prop :=
  (Scalar.cmpi .ne (Scalar.extui (Scalar.cmpi .eq (BitVec.ofNat 32 (i 2).val) 0#32)) 0#32) = 1#1
/-- kj ≤ qi (signed), as the body computes it: the key tile meets the causal triangle. -/
abbrev adds (i : grid0.Coords) : Prop :=
  (Scalar.cmpi .ne (Scalar.extui (Scalar.cmpi .sle (BitVec.ofNat 32 (i 2).val) (BitVec.ofNat 32 (i 1).val))) 0#32) = 1#1
/-- kj = 3, as the body computes it: the quotient is stored. -/
abbrev emits (i : grid0.Coords) : Prop := k0_cond3 i = 1#1

theorem resets_iff : ∀ t : Fin cfg0.N, resets (grid0.coords t) ↔ t.val % 4 = 0 :=
  (by decide +kernel : ∀ t : Fin grid0.N, resets (grid0.coords t) ↔ t.val % 4 = 0)
theorem adds_iff : ∀ t : Fin cfg0.N, adds (grid0.coords t) ↔ t.val % 4 ≤ t.val / 4 % 4 :=
  (by decide +kernel : ∀ t : Fin grid0.N, adds (grid0.coords t) ↔ t.val % 4 ≤ t.val / 4 % 4)
theorem emits_iff : ∀ t : Fin cfg0.N, emits (grid0.coords t) ↔ t.val % 4 = 3 :=
  (by decide +kernel : ∀ t : Fin grid0.N, emits (grid0.coords t) ↔ t.val % 4 = 3)

/-! ## Where the windows are idle -/

theorem live_q : ∀ t : Fin cfg0.N, cfg0.idle 0 (grid0.coords t) = false := by decide +kernel
theorem live_k : ∀ t : Fin cfg0.N, cfg0.idle 1 (grid0.coords t) = false := by decide +kernel
theorem live_v : ∀ t : Fin cfg0.N, cfg0.idle 2 (grid0.coords t) = false := by decide +kernel
/-- Away from the last key tile nothing is stored into the output tile's buffer, and it is not written back there. -/
theorem idle_o : ∀ t : Fin cfg0.N, ¬emits (grid0.coords t) → cfg0.idle 3 (grid0.coords t) = true := by decide +kernel
theorem noflush_o : ∀ t : Fin cfg0.N, ¬emits (grid0.coords t) → (cfg0.win 3).flush t = false := by decide +kernel
theorem live_o : ∀ t : Fin cfg0.N, emits (grid0.coords t) → cfg0.idle 3 (grid0.coords t) = false := by decide +kernel

/-! ## The memrefs the body is called with -/

abbrev mq (t : Fin cfg0.N) : Memref sig .tc .vmem S1x512x64 .f32 := win0_0.stage (cfg0.slots t 0)
abbrev hq (t : Fin cfg0.N) : (mq t).IsWhole := hstage0_0 ((cfg0.slots t 0).cast nbuf0_0)
abbrev mk (t : Fin cfg0.N) : Memref sig .tc .vmem S1x512x64 .f32 := win0_1.stage (cfg0.slots t 1)
abbrev hk (t : Fin cfg0.N) : (mk t).IsWhole := hstage0_1 ((cfg0.slots t 1).cast nbuf0_1)
abbrev mv (t : Fin cfg0.N) : Memref sig .tc .vmem S1x512x64 .f32 := win0_2.stage (cfg0.slots t 2)
abbrev hv (t : Fin cfg0.N) : (mv t).IsWhole := hstage0_2 ((cfg0.slots t 2).cast nbuf0_2)
abbrev mo (t : Fin cfg0.N) : Memref sig .tc .vmem S1x512x64 .f32 := win0_3.stage (cfg0.slots t 3)
abbrev ho (t : Fin cfg0.N) : (mo t).IsWhole := hstage0_3 ((cfg0.slots t 3).cast nbuf0_3)
/-- The weighted sum of value rows, carried from key tile to key tile. -/
abbrev macc : Memref sig .tc .vmem S512x64 .f32 := Memref.whole cc0_scratch0
/-- The row normaliser, carried likewise. -/
abbrev mden : Memref sig .tc .vmem S512x1 .f32 := Memref.whole cc0_scratch1
/-- Views through which the three written buffers' contents are stated (the choice of buffer does not matter). -/
abbrev VO : View sig .tc .vmem S1x512x64 .f32 := (Memref.whole cc0_stg3_0 : Memref sig .tc .vmem S1x512x64 .f32).view
abbrev VA : View sig .tc .vmem S512x64 .f32 := macc.view
abbrev VD : View sig .tc .vmem S512x1 .f32 := mden.view

/-- The region's entry invariant: both scratch buffers at some contents, and the generator register. -/
theorem PhiA_eq (c : Dev nD) :
    (Pipeline.ΦA spec0 c : sProp 𝕄)
      = iprop(iprop((∃ d, owns (c : Thread nD τ) macc fullShare d) ∗ (∃ d, owns (c : Thread nD τ) mden fullShare d)) ∗ (∃ r, prngReg c r)) := by
  unfold Pipeline.ΦA; rw [scopedRest0_eq]; simp only [macc, mden, owns_whole]; try rfl

end Cert.KernelIdeal.Body

end
-- ==== Proof.IdealFrame.RunAdd.lean ====
/-
  The body at a key tile strictly inside a query tile's row of the causal triangle, neither its first nor its last
  (no reset, the tile's scores added, nothing stored to the output): from the three input tiles at q, k, v, the output
  tile's buffer at anything it is handed (returned untouched) and the two running sums at what the tile before left, the
  body runs and leaves each running sum with one whole-buffer store written. The stores are found by the run.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.Guards
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runAdd (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole)
    (hr : ¬resets i) (ha : adds i) (he : ¬emits i)
    (q k v : Vec F S1x512x64 .f32) (xa : Vec F S512x64 .f32) (xd : Vec F S512x1 .f32) :
    Σ' (LA : List (View.Piece (Elt F) S512x64 .f32)), { LD : List (View.Piece (Elt F) S512x1 .f32) //
      ∀ (xo : Vec F S1x512x64 .f32) (E : Set ℕ) (K : PUnit → sProp 𝕄),
        iprop(owns (c : Thread nD τ) a3 fullShare q ∗ owns (c : Thread nD τ) a4 fullShare k ∗ owns (c : Thread nD τ) a5 fullShare v ∗ owns (c : Thread nD τ) a6 fullShare xo ∗ owns (c : Thread nD τ) a7 fullShare xa ∗ owns (c : Thread nD τ) a8 fullShare xd
            ∗ (iprop(owns (c : Thread nD τ) a3 fullShare q ∗ owns (c : Thread nD τ) a4 fullShare k ∗ owns (c : Thread nD τ) a5 fullShare v ∗ owns (c : Thread nD τ) a6 fullShare xo ∗ (∃ f, a7.view.loc (c : Thread nD τ) ↦[a7.view.set]{fullShare} a7.view.writes (Elt F) f LA) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hr | exact ha | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.KernelIdeal.Body

end
-- ==== Proof.IdealFrame.RunReset.lean ====
/-
  The body at a query tile's first key tile (kj = 0; the reset, then the tile's scores added; nothing stored to the
  output): the two running sums may hold anything on entry, since each is stored whole before it is read. The output
  tile's buffer is returned untouched. The stores each running sum ends with are found by the run.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.RunAdd
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runReset (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole)
    (hr : resets i) (ha : adds i) (he : ¬emits i)
    (q k v : Vec F S1x512x64 .f32) :
    Σ' (LA : List (View.Piece (Elt F) S512x64 .f32)), { LD : List (View.Piece (Elt F) S512x1 .f32) //
      ∀ (xo : Vec F S1x512x64 .f32) (E : Set ℕ) (K : PUnit → sProp 𝕄),
        iprop(owns (c : Thread nD τ) a3 fullShare q ∗ owns (c : Thread nD τ) a4 fullShare k ∗ owns (c : Thread nD τ) a5 fullShare v ∗ owns (c : Thread nD τ) a6 fullShare xo ∗ (∃ d, owns (c : Thread nD τ) a7 fullShare d) ∗ (∃ d, owns (c : Thread nD τ) a8 fullShare d)
            ∗ (iprop(owns (c : Thread nD τ) a3 fullShare q ∗ owns (c : Thread nD τ) a4 fullShare k ∗ owns (c : Thread nD τ) a5 fullShare v ∗ owns (c : Thread nD τ) a6 fullShare xo ∗ (∃ f, a7.view.loc (c : Thread nD τ) ↦[a7.view.set]{fullShare} a7.view.writes (Elt F) f LA) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a3 h3 a4 h4 a5 h5 a6 h6 a7 h7 a8 h8) K } := by
  refine ⟨?_, ?_, fun xo E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h3.eq_unread hf3; obtain rfl := h4.eq_unread hf4; obtain rfl := h5.eq_unread hf5
    obtain rfl := h6.eq_unread hf6
    sl_exec (disch := first | exact hr | exact ha | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.KernelIdeal.Body

end
-- ==== Proof.IdealFrame.RunSkip.lean ====
/-
  The body at a key tile wholly above the causal diagonal and not the last (kj > qi, kj ≠ 3): no guard holds, the body
  touches no memory, and it is the continuation.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.RunReset
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runSkip (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole)
    (hr : ¬resets i) (ha : ¬adds i) (he : ¬emits i) (E : Set ℕ) (K : PUnit → sProp 𝕄) :
    K ⟨⟩ ⊢ wp frame (wpE (defs₀ (F := F)) Variants.none c none) E (cc0__attn_kernel i a3 h3 a4 h4 a5 h5 a6 h6 a7 h7 a8 h8) K := by
  simp only [cc0__attn_kernel_eq_skeleton]; unfold cc0__attn_kernel_skel
  simp only [k0_part1_eq_skeleton]
  iintro HK
  sl_exec (disch := first | exact hr | exact ha | exact he)
  sl_step
  iexact HK

end Cert.KernelIdeal.Body

end
-- ==== Proof.IdealFrame.RunAddEmit.lean ====
/-
  The body at the last key tile of the last query tile's row (kj = qi = 3: the tile's scores added, then the
  quotient stored): the output tile's buffer may hold anything on entry; the two running sums are at what the tile
  before left. The stores the three buffers end with are found by the run.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.RunSkip
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runAddEmit (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole)
    (hr : ¬resets i) (ha : adds i) (he : emits i)
    (q k v : Vec F S1x512x64 .f32) (xa : Vec F S512x64 .f32) (xd : Vec F S512x1 .f32) :
    Σ' (LO : List (View.Piece (Elt F) S1x512x64 .f32)) (LA : List (View.Piece (Elt F) S512x64 .f32)), { LD : List (View.Piece (Elt F) S512x1 .f32) //
      ∀ (E : Set ℕ) (K : PUnit → sProp 𝕄),
        iprop(owns (c : Thread nD τ) a3 fullShare q ∗ owns (c : Thread nD τ) a4 fullShare k ∗ owns (c : Thread nD τ) a5 fullShare v ∗ (∃ d, owns (c : Thread nD τ) a6 fullShare d) ∗ owns (c : Thread nD τ) a7 fullShare xa ∗ owns (c : Thread nD τ) a8 fullShare xd
            ∗ (iprop(owns (c : Thread nD τ) a3 fullShare q ∗ owns (c : Thread nD τ) a4 fullShare k ∗ owns (c : Thread nD τ) a5 fullShare v ∗ (∃ f, a6.view.loc (c : Thread nD τ) ↦[a6.view.set]{fullShare} a6.view.writes (Elt F) f LO) ∗ (∃ f, a7.view.loc (c : Thread nD τ) ↦[a7.view.set]{fullShare} a7.view.writes (Elt F) f LA) ∗ (∃ f, a8.view.loc (c : Thread nD τ) ↦[a8.view.set]{fullShare} a8.view.writes (Elt F) f LD)) -∗ K ⟨⟩))
          ⊢ wp frame (wpE (defs₀ (F := F)) Variants.none c none) E (cc0__attn_kernel i a3 h3 a4 h4 a5 h5 a6 h6 a7 h7 a8 h8) K } := by
  refine ⟨?_, ?_, ?_, fun E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h3.eq_unread hf3; obtain rfl := h4.eq_unread hf4; obtain rfl := h5.eq_unread hf5
    obtain rfl := h7.eq_unread hf7; obtain rfl := h8.eq_unread hf8
    sl_exec (disch := first | exact hr | exact ha | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Body

end
-- ==== Proof.IdealFrame.RunEmit.lean ====
/-
  The body at the last key tile of a query tile's row that lies above the diagonal (kj = 3 > qi: nothing added, the
  quotient of the two running sums stored): the running sums are read and returned as they were; the output tile's
  buffer may hold anything on entry and ends with the stores the run finds.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.RunAddEmit
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runEmit (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole)
    (hr : ¬resets i) (ha : ¬adds i) (he : emits i)
    (q k v : Vec F S1x512x64 .f32) (xa : Vec F S512x64 .f32) (xd : Vec F S512x1 .f32) :
    { LO : List (View.Piece (Elt F) S1x512x64 .f32) //
      ∀ (E : Set ℕ) (K : PUnit → sProp 𝕄),
        iprop(owns (c : Thread nD τ) a3 fullShare q ∗ owns (c : Thread nD τ) a4 fullShare k ∗ owns (c : Thread nD τ) a5 fullShare v ∗ (∃ d, owns (c : Thread nD τ) a6 fullShare d) ∗ owns (c : Thread nD τ) a7 fullShare xa ∗ owns (c : Thread nD τ) a8 fullShare xd
            ∗ (iprop(owns (c : Thread nD τ) a3 fullShare q ∗ owns (c : Thread nD τ) a4 fullShare k ∗ owns (c : Thread nD τ) a5 fullShare v ∗ (∃ f, a6.view.loc (c : Thread nD τ) ↦[a6.view.set]{fullShare} a6.view.writes (Elt F) f LO) ∗ owns (c : Thread nD τ) a7 fullShare xa ∗ owns (c : Thread nD τ) a8 fullShare xd) -∗ K ⟨⟩))
          ⊢ wp frame (wpE (defs₀ (F := F)) Variants.none c none) E (cc0__attn_kernel i a3 h3 a4 h4 a5 h5 a6 h6 a7 h7 a8 h8) K } := by
  refine ⟨?_, fun E K => ?run⟩
  case run =>
    simp only [cc0__attn_kernel_eq_skeleton]; unfold cc0__attn_kernel_skel
    simp only [k0_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h3.eq_unread hf3; obtain rfl := h4.eq_unread hf4; obtain rfl := h5.eq_unread hf5
    obtain rfl := h7.eq_unread hf7; obtain rfl := h8.eq_unread hf8
    sl_exec (disch := first | exact hr | exact ha | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]
    · iexists _; isplitr; · ipureintro; exact h7.read_unread _
      iexact H7
    iexists _; isplitr; · ipureintro; exact h8.read_unread _
    iexact H8

end Cert.KernelIdeal.Body

end
-- ==== Proof.IdealFrame.Sums.lean ====
/-
  The two running sums point by point, and the frame on top of them. One grid point's effect on the pair (weighted sum of
  value rows, row normaliser) is a pure step: reset both to zero at a row's first key tile, then add the tile's masked
  weights where the tile meets the causal triangle. The contents after point n are that step iterated from the start; the
  output tile's buffer holds their quotient at a row's last key tile. Each of the five control cases of the body leaves
  exactly the step's values (read off the stores its run found), so the region's invariant can carry both scratch buffers
  at named contents from point to point, the body obligation holds at every point, and the pipeline's run and the frame follow.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.RunEmit
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by funext a; fin_cases a <;> rfl
theorem zeros3 : (![0, 0, 0] : Fin 3 → Nat) = fun _ => 0 := by funext a; fin_cases a <;> rfl

/-! ## What each case's stores leave, as the body's pure terms -/

theorem add_acc (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : adds i) (he : ¬emits i) (q k v : Vec F S1x512x64 .f32) (xa : Vec F S512x64 .f32) (xd : Vec F S512x1 .f32)
    (w : View sig .tc .vmem S512x64 .f32) (f : w.ty.Contents (Elt F)) :
    w.read (Elt F) (w.writes (Elt F) f (runAdd c i a3 h3 a4 h4 a5 h5 a6 h6 a7 h7 a8 h8 hr ha he q k v xa xd).1) = k0_pay6 (BitVec.ofNat 32 (i 1).val) (BitVec.ofNat 32 (i 2).val) q k v xa := by
  rw [View.read_writes_eq_canon _ _ _ (View.cover_of_tiledL _ S512x64.size (by sl_kernel_rfl))]
  unfold runAdd; dsimp only; sl_unfold_words
  rw [View.canon_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem add_den (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : adds i) (he : ¬emits i) (q k v : Vec F S1x512x64 .f32) (xa : Vec F S512x64 .f32) (xd : Vec F S512x1 .f32)
    (w : View sig .tc .vmem S512x1 .f32) (f : w.ty.Contents (Elt F)) :
    w.read (Elt F) (w.writes (Elt F) f (runAdd c i a3 h3 a4 h4 a5 h5 a6 h6 a7 h7 a8 h8 hr ha he q k v xa xd).2.1) = k0_pay3 (k0_pay5 (BitVec.ofNat 32 (i 1).val) (BitVec.ofNat 32 (i 2).val) q k) xd := by
  rw [View.read_writes_eq_canon _ _ _ (View.cover_of_tiledL _ S512x1.size (by sl_kernel_rfl))]
  unfold runAdd; dsimp only; sl_unfold_words
  rw [View.canon_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem reset_acc (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : resets i) (ha : adds i) (he : ¬emits i) (q k v : Vec F S1x512x64 .f32)
    (w : View sig .tc .vmem S512x64 .f32) (f : w.ty.Contents (Elt F)) :
    w.read (Elt F) (w.writes (Elt F) f (runReset c i a3 h3 a4 h4 a5 h5 a6 h6 a7 h7 a8 h8 hr ha he q k v).1) = k0_pay6 (BitVec.ofNat 32 (i 1).val) (BitVec.ofNat 32 (i 2).val) q k v k0_pay1 := by
  rw [View.read_writes_eq_canon _ _ _ (View.cover_of_tiledL _ S512x64.size (by sl_kernel_rfl))]
  unfold runReset; dsimp only; sl_unfold_words
  rw [View.canon_cons_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem reset_den (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : resets i) (ha : adds i) (he : ¬emits i) (q k v : Vec F S1x512x64 .f32)
    (w : View sig .tc .vmem S512x1 .f32) (f : w.ty.Contents (Elt F)) :
    w.read (Elt F) (w.writes (Elt F) f (runReset c i a3 h3 a4 h4 a5 h5 a6 h6 a7 h7 a8 h8 hr ha he q k v).2.1) = k0_pay3 (k0_pay5 (BitVec.ofNat 32 (i 1).val) (BitVec.ofNat 32 (i 2).val) q k) k0_pay2 := by
  rw [View.read_writes_eq_canon _ _ _ (View.cover_of_tiledL _ S512x1.size (by sl_kernel_rfl))]
  unfold runReset; dsimp only; sl_unfold_words
  rw [View.canon_cons_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem addEmit_out (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : adds i) (he : emits i) (q k v : Vec F S1x512x64 .f32) (xa : Vec F S512x64 .f32) (xd : Vec F S512x1 .f32)
    (w : View sig .tc .vmem S1x512x64 .f32) (f : w.ty.Contents (Elt F)) :
    w.read (Elt F) (w.writes (Elt F) f (runAddEmit c i a3 h3 a4 h4 a5 h5 a6 h6 a7 h7 a8 h8 hr ha he q k v xa xd).1) = k0_pay4 (k0_pay6 (BitVec.ofNat 32 (i 1).val) (BitVec.ofNat 32 (i 2).val) q k v xa) (k0_pay3 (k0_pay5 (BitVec.ofNat 32 (i 1).val) (BitVec.ofNat 32 (i 2).val) q k) xd) := by
  rw [View.read_writes_eq_canon _ _ _ (View.cover_of_tiledL _ S1x512x64.size (by sl_kernel_rfl))]
  unfold runAddEmit; dsimp only; sl_unfold_words
  rw [View.canon_unit_zero zeros3]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem addEmit_acc (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : adds i) (he : emits i) (q k v : Vec F S1x512x64 .f32) (xa : Vec F S512x64 .f32) (xd : Vec F S512x1 .f32)
    (w : View sig .tc .vmem S512x64 .f32) (f : w.ty.Contents (Elt F)) :
    w.read (Elt F) (w.writes (Elt F) f (runAddEmit c i a3 h3 a4 h4 a5 h5 a6 h6 a7 h7 a8 h8 hr ha he q k v xa xd).2.1) = k0_pay6 (BitVec.ofNat 32 (i 1).val) (BitVec.ofNat 32 (i 2).val) q k v xa := by
  rw [View.read_writes_eq_canon _ _ _ (View.cover_of_tiledL _ S512x64.size (by sl_kernel_rfl))]
  unfold runAddEmit; dsimp only; sl_unfold_words
  rw [View.canon_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem addEmit_den (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : adds i) (he : emits i) (q k v : Vec F S1x512x64 .f32) (xa : Vec F S512x64 .f32) (xd : Vec F S512x1 .f32)
    (w : View sig .tc .vmem S512x1 .f32) (f : w.ty.Contents (Elt F)) :
    w.read (Elt F) (w.writes (Elt F) f (runAddEmit c i a3 h3 a4 h4 a5 h5 a6 h6 a7 h7 a8 h8 hr ha he q k v xa xd).2.2.1) = k0_pay3 (k0_pay5 (BitVec.ofNat 32 (i 1).val) (BitVec.ofNat 32 (i 2).val) q k) xd := by
  rw [View.read_writes_eq_canon _ _ _ (View.cover_of_tiledL _ S512x1.size (by sl_kernel_rfl))]
  unfold runAddEmit; dsimp only; sl_unfold_words
  rw [View.canon_unit_zero zeros2]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

theorem emit_out (c : Dev nD) (i : grid0.Coords) (a3 : Memref sig .tc .vmem S1x512x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x512x64 .f32) (h6 : a6.IsWhole) (a7 : Memref sig .tc .vmem S512x64 .f32) (h7 : a7.IsWhole) (a8 : Memref sig .tc .vmem S512x1 .f32) (h8 : a8.IsWhole) (hr : ¬resets i) (ha : ¬adds i) (he : emits i) (q k v : Vec F S1x512x64 .f32) (xa : Vec F S512x64 .f32) (xd : Vec F S512x1 .f32)
    (w : View sig .tc .vmem S1x512x64 .f32) (f : w.ty.Contents (Elt F)) :
    w.read (Elt F) (w.writes (Elt F) f (runEmit c i a3 h3 a4 h4 a5 h5 a6 h6 a7 h7 a8 h8 hr ha he q k v xa xd).1) = k0_pay4 xa xd := by
  rw [View.read_writes_eq_canon _ _ _ (View.cover_of_tiledL _ S1x512x64.size (by sl_kernel_rfl))]
  unfold runEmit; dsimp only; sl_unfold_words
  rw [View.canon_unit_zero zeros3]
  simp only [View.readAt_eq_ld, h3.read_unread, h4.read_unread, h5.read_unread, h7.read_unread, h8.read_unread,
    View.ld_unit_zero (S := S1x512x64) zeros3, View.ld_unit_zero (S := S512x64) zeros2, View.ld_unit_zero (S := S512x1) zeros2,
    View.readCov_unit_zero (S := S512x64) _ zeros2, View.readCov_unit_zero (S := S512x1) _ zeros2]

/-! ## The running sums, point by point -/

/-- The tile coordinates as the words the body receives, and the three input tiles at a point. -/
abbrev qiW (t : Fin cfg0.N) : BitVec 32 := BitVec.ofNat 32 ((grid0.coords t) 1).val
abbrev kjW (t : Fin cfg0.N) : BitVec 32 := BitVec.ofNat 32 ((grid0.coords t) 2).val
abbrev qT (c : Dev nD) (t : Fin cfg0.N) : Vec F S1x512x64 .f32 := iblk m c 0 t
abbrev kT (c : Dev nD) (t : Fin cfg0.N) : Vec F S1x512x64 .f32 := iblk m c 1 t
abbrev vT (c : Dev nD) (t : Fin cfg0.N) : Vec F S1x512x64 .f32 := iblk m c 2 t

/-- One point's effect on the pair of running sums. -/
def step (c : Dev nD) (t : Fin cfg0.N) (s : Vec F S512x64 .f32 × Vec F S512x1 .f32) : Vec F S512x64 .f32 × Vec F S512x1 .f32 :=
  if resets (grid0.coords t) then
    (k0_pay6 (qiW t) (kjW t) (qT m c t) (kT m c t) (vT m c t) k0_pay1, k0_pay3 (k0_pay5 (qiW t) (kjW t) (qT m c t) (kT m c t)) k0_pay2)
  else if adds (grid0.coords t) then
    (k0_pay6 (qiW t) (kjW t) (qT m c t) (kT m c t) (vT m c t) s.1, k0_pay3 (k0_pay5 (qiW t) (kjW t) (qT m c t) (kT m c t)) s.2)
  else s

theorem step_reset (c : Dev nD) (t : Fin cfg0.N) (s) (hr : resets (grid0.coords t)) :
    step m c t s = (k0_pay6 (qiW t) (kjW t) (qT m c t) (kT m c t) (vT m c t) k0_pay1, k0_pay3 (k0_pay5 (qiW t) (kjW t) (qT m c t) (kT m c t)) k0_pay2) := by
  unfold step; rw [if_pos hr]
theorem step_add (c : Dev nD) (t : Fin cfg0.N) (s) (hr : ¬resets (grid0.coords t)) (ha : adds (grid0.coords t)) :
    step m c t s = (k0_pay6 (qiW t) (kjW t) (qT m c t) (kT m c t) (vT m c t) s.1, k0_pay3 (k0_pay5 (qiW t) (kjW t) (qT m c t) (kT m c t)) s.2) := by
  unfold step; rw [if_neg hr, if_pos ha]
theorem step_skip (c : Dev nD) (t : Fin cfg0.N) (s) (hr : ¬resets (grid0.coords t)) (ha : ¬adds (grid0.coords t)) :
    step m c t s = s := by
  unfold step; rw [if_neg hr, if_neg ha]

/-- The pair after the body at position n. (Position 0 resets, so what it starts from does not matter.) -/
def sumsAt (c : Dev nD) : (n : ℕ) → n < cfg0.N → Vec F S512x64 .f32 × Vec F S512x1 .f32
  | 0, hn => step m c ⟨0, hn⟩ (k0_pay1, k0_pay2)
  | n + 1, hn => step m c ⟨n + 1, hn⟩ (sumsAt c n (Nat.lt_of_succ_lt hn))

theorem sumsAt_pos (c : Dev nD) (t : Fin cfg0.N) (h : t.val ≠ 0) :
    sumsAt m c t.val t.isLt = step m c t (sumsAt m c (t.val - 1) (Nat.lt_of_le_of_lt (Nat.sub_le _ _) t.isLt)) := by
  obtain ⟨n, hn⟩ := t
  cases n with
  | zero => exact absurd rfl h
  | succ n => rfl

theorem sumsAt_first (c : Dev nD) (t : Fin cfg0.N) (h : t.val = 0) :
    sumsAt m c t.val t.isLt = step m c t (k0_pay1, k0_pay2) := by
  obtain ⟨n, hn⟩ := t
  cases n with
  | zero => rfl
  | succ n => exact absurd h (Nat.succ_ne_zero n)

/-- What the output tile's buffer holds after a point that stores into it: the quotient of the two sums there. -/
def outAt (c : Dev nD) (t : Fin cfg0.N) : Vec F S1x512x64 .f32 :=
  k0_pay4 (sumsAt m c t.val t.isLt).1 (sumsAt m c t.val t.isLt).2

/-! ## The region's invariant and proof data -/

/-- Before position n: at the start the launch's invariant (both scratch buffers at anything); afterwards both scratch
    buffers at the running sums the position before left, and the generator register at some state. -/
def PhiS (c : Dev nD) : (n : ℕ) → n ≤ cfg0.N → sProp 𝕄
  | 0, _ => Pipeline.ΦA spec0 c
  | n + 1, hn => iprop(iprop(owns (c : Thread nD τ) macc fullShare (sumsAt m c n hn).1 ∗ owns (c : Thread nD τ) mden fullShare (sumsAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) macc fullShare (sumsAt m c n hn).1 ∗ owns (c : Thread nD τ) mden fullShare (sumsAt m c n hn).2) ∗ (∃ r, prngReg c r)) := rfl

theorem PhiS_pos (c : Dev nD) (n : ℕ) (h : n ≤ cfg0.N) (hz : n ≠ 0) :
    PhiS m c n h = iprop(iprop(owns (c : Thread nD τ) macc fullShare (sumsAt m c (n - 1) (by omega)).1 ∗ owns (c : Thread nD τ) mden fullShare (sumsAt m c (n - 1) (by omega)).2) ∗ (∃ r, prngReg c r)) := by
  cases n with
  | zero => exact absurd rfl hz
  | succ n => rfl

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

end Cert.KernelIdeal.Body

end
-- ==== Proof.IdealFrame.Obligation.lean ====
/-
  The body obligation at every grid point, the pipeline's run, and the frame. At a point the invariant hands the body
  the two running sums at what the point before left (at anything before the first point, which resets them); the point's
  place in the grid (first key tile of a row; a tile inside the causal triangle; the last key tile; a tile above the
  diagonal) selects one of the five control cases; the case's run applies and leaves the sums at the step's values, and
  the output tile's buffer at their quotient where it is stored, untouched elsewhere.
-/
import proofs.«144033_j29240137351228_1_alg».proof.Proof.Gen.KernelIdeal.Skeleton
import proofs.«144033_j29240137351228_1_alg».proof.Proof.Gen.KernelIdeal.Frame
import proofs.«144033_j29240137351228_1_alg».proof.Proof.IdealFrame.Sums
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mo t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mq t) fullShare ((dats m 0 c).after 0 t) from by
    unfold Dat.leavesExact; rw [live_q t], after_q]
  rw [show (dats m 0 c).leavesExact 1 t = owns (c : Thread nD τ) (mk t) fullShare ((dats m 0 c).after 1 t) from by
    unfold Dat.leavesExact; rw [live_k t], after_k]
  rw [show (dats m 0 c).leavesExact 2 t = owns (c : Thread nD τ) (mv t) fullShare ((dats m 0 c).after 2 t) from by
    unfold Dat.leavesExact; rw [live_v t], after_v]
  have hN : t.val < 512 := lt_of_lt_of_eq t.isLt (show cfg0.N = 512 from N_0)
  by_cases h0 : t.val % 4 = 0
  · -- a row's first key tile: reset, then the diagonal-or-below tile added
    have Hr : resets (grid0.coords t) := (resets_iff t).mpr h0
    have Ha : adds (grid0.coords t) := (adds_iff t).mpr (by omega)
    have He : ¬emits (grid0.coords t) := fun h => by have := (emits_iff t).mp h; omega
    rw [Dat.leavesExact_idle (dats m 0 c) 3 t (idle_o t He) (noflush_o t He)]
    by_cases hz : t.val = 0
    · rw [sumsAt_first m c t hz, step_reset m c t _ Hr]
      rw [PhiS_castSucc m c t, PhiS_zero m c _ _ hz, PhiA_eq]
      iintro ⟨⟨⟨HA, HD⟩, Hg⟩, Ho, ⟨%d0, H0⟩, ⟨%d1, H1⟩, ⟨%d2, H2⟩, ⟨%d3, H3⟩⟩
      iapply ((runReset c (grid0.coords t) _ _ _ _ _ _ _ _ _ _ _ _ Hr Ha He (qT m c t) (kT m c t) (vT m c t)).2.2 _ Set.univ _)
      isplitl [H0]; · iexact H0
      isplitl [H1]; · iexact H1
      isplitl [H2]; · iexact H2
      isplitl [H3]; · iexact H3
      isplitl [HA]; · iexact HA
      isplitl [HD]; · iexact HD
      iintro ⟨H0, H1, H2, H3, ⟨%fa, HA⟩, ⟨%fd, HD⟩⟩
      isplitl [HA HD Hg]
      · isplitl [HA HD]
        · isplitl [HA]
          · unfold owns; iexists _; isplitr
            swap; · iexact HA
            ipureintro; exact reset_acc c _ _ _ _ _ _ _ _ _ _ _ _ _ Hr Ha He _ _ _ _ _
          · unfold owns; iexists _; isplitr
            swap; · iexact HD
            ipureintro; exact reset_den c _ _ _ _ _ _ _ _ _ _ _ _ _ Hr Ha He _ _ _ _ _
        iexact Hg
      isplitl [Ho]; · iexact Ho
      isplitl [H0]; · iexact H0
      isplitl [H1]; · iexact H1
      isplitl [H2]; · iexact H2
      iexists _; iexact H3
    · rw [sumsAt_pos m c t hz, step_reset m c t _ Hr]
      rw [PhiS_castSucc m c t, PhiS_pos m c _ _ hz]
      iintro ⟨⟨⟨HA, HD⟩, Hg⟩, Ho, ⟨%d0, H0⟩, ⟨%d1, H1⟩, ⟨%d2, H2⟩, ⟨%d3, H3⟩⟩
      iapply ((runReset c (grid0.coords t) _ _ _ _ _ _ _ _ _ _ _ _ Hr Ha He (qT m c t) (kT m c t) (vT m c t)).2.2 _ Set.univ _)
      isplitl [H0]; · iexact H0
      isplitl [H1]; · iexact H1
      isplitl [H2]; · iexact H2
      isplitl [H3]; · iexact H3
      isplitl [HA]; · iexists _; iexact HA
      isplitl [HD]; · iexists _; iexact HD
      iintro ⟨H0, H1, H2, H3, ⟨%fa, HA⟩, ⟨%fd, HD⟩⟩
      isplitl [HA HD Hg]
      · isplitl [HA HD]
        · isplitl [HA]
          · unfold owns; iexists _; isplitr
            swap; · iexact HA
            ipureintro; exact reset_acc c _ _ _ _ _ _ _ _ _ _ _ _ _ Hr Ha He _ _ _ _ _
          · unfold owns; iexists _; isplitr
            swap; · iexact HD
            ipureintro; exact reset_den c _ _ _ _ _ _ _ _ _ _ _ _ _ Hr Ha He _ _ _ _ _
        iexact Hg
      isplitl [Ho]; · iexact Ho
      isplitl [H0]; · iexact H0
      isplitl [H1]; · iexact H1
      isplitl [H2]; · iexact H2
      iexists _; iexact H3
  · have Hr : ¬resets (grid0.coords t) := fun h => h0 ((resets_iff t).mp h)
    have hz : t.val ≠ 0 := fun h => h0 (by rw [h])
    rw [PhiS_castSucc m c t, PhiS_pos m c _ _ hz]
    by_cases h3 : t.val % 4 = 3
    · have He : emits (grid0.coords t) := (emits_iff t).mpr h3
      rw [show (dats m 0 c).leavesExact 3 t = owns (c : Thread nD τ) (mo t) fullShare ((dats m 0 c).after 3 t) from by
        unfold Dat.leavesExact; rw [live_o t He], after_o]
      unfold outAt
      by_cases ha : t.val % 4 ≤ t.val / 4 % 4
      · -- the last key tile of the last row of tiles: added, then the quotient stored
        have Ha : adds (grid0.coords t) := (adds_iff t).mpr ha
        rw [sumsAt_pos m c t hz, step_add m c t _ Hr Ha]
        iintro ⟨⟨⟨HA, HD⟩, Hg⟩, Ho, ⟨%d0, H0⟩, ⟨%d1, H1⟩, ⟨%d2, H2⟩, ⟨%d3, H3⟩⟩
        iapply ((runAddEmit c (grid0.coords t) _ _ _ _ _ _ _ _ _ _ _ _ Hr Ha He (qT m c t) (kT m c t) (vT m c t) _ _).2.2.2 Set.univ _)
        isplitl [H0]; · iexact H0
        isplitl [H1]; · iexact H1
        isplitl [H2]; · iexact H2
        isplitl [H3]; · iexists _; iexact H3
        isplitl [HA]; · iexact HA
        isplitl [HD]; · iexact HD
        iintro ⟨H0, H1, H2, ⟨%fo, H3⟩, ⟨%fa, HA⟩, ⟨%fd, HD⟩⟩
        isplitl [HA HD Hg]
        · isplitl [HA HD]
          · isplitl [HA]
            · unfold owns; iexists _; isplitr
              swap; · iexact HA
              ipureintro; exact addEmit_acc c _ _ _ _ _ _ _ _ _ _ _ _ _ Hr Ha He _ _ _ _ _ _ _
            · unfold owns; iexists _; isplitr
              swap; · iexact HD
              ipureintro; exact addEmit_den c _ _ _ _ _ _ _ _ _ _ _ _ _ Hr Ha He _ _ _ _ _ _ _
          iexact Hg
        isplitl [Ho]; · iexact Ho
        isplitl [H0]; · iexact H0
        isplitl [H1]; · iexact H1
        isplitl [H2]; · iexact H2
        unfold owns; iexists _; isplitr
        swap; · iexact H3
        ipureintro; exact addEmit_out c _ _ _ _ _ _ _ _ _ _ _ _ _ Hr Ha He _ _ _ _ _ _ _
      · -- the last key tile of a row above the diagonal: nothing added, the quotient stored
        have Ha : ¬adds (grid0.coords t) := fun h => ha ((adds_iff t).mp h)
        rw [sumsAt_pos m c t hz, step_skip m c t _ Hr Ha]
        iintro ⟨⟨⟨HA, HD⟩, Hg⟩, Ho, ⟨%d0, H0⟩, ⟨%d1, H1⟩, ⟨%d2, H2⟩, ⟨%d3, H3⟩⟩
        iapply ((runEmit c (grid0.coords t) _ _ _ _ _ _ _ _ _ _ _ _ Hr Ha He (qT m c t) (kT m c t) (vT m c t) _ _).2 Set.univ _)
        isplitl [H0]; · iexact H0
        isplitl [H1]; · iexact H1
        isplitl [H2]; · iexact H2
        isplitl [H3]; · iexists _; iexact H3
        isplitl [HA]; · iexact HA
        isplitl [HD]; · iexact HD
        iintro ⟨H0, H1, H2, ⟨%fo, H3⟩, HA, HD⟩
        isplitl [HA HD Hg]
        · isplitl [HA HD]
          · isplitl [HA]; · iexact HA
            iexact HD
          iexact Hg
        isplitl [Ho]; · iexact Ho
        isplitl [H0]; · iexact H0
        isplitl [H1]; · iexact H1
        isplitl [H2]; · iexact H2
        unfold owns; iexists _; isplitr
        swap; · iexact H3
        ipureintro; exact emit_out c _ _ _ _ _ _ _ _ _ _ _ _ _ Hr Ha He _ _ _ _ _ _ _
    · have He : ¬emits (grid0.coords t) := fun h => h3 ((emits_iff t).mp h)
      rw [Dat.leavesExact_idle (dats m 0 c) 3 t (idle_o t He) (noflush_o t He)]
      by_cases ha : t.val % 4 ≤ t.val / 4 % 4
      · -- a key tile inside the triangle, neither first nor last: added
        have Ha : adds (grid0.coords t) := (adds_iff t).mpr ha
        rw [sumsAt_pos m c t hz, step_add m c t _ Hr Ha]
        iintro ⟨⟨⟨HA, HD⟩, Hg⟩, Ho, ⟨%d0, H0⟩, ⟨%d1, H1⟩, ⟨%d2, H2⟩, ⟨%d3, H3⟩⟩
        iapply ((runAdd c (grid0.coords t) _ _ _ _ _ _ _ _ _ _ _ _ Hr Ha He (qT m c t) (kT m c t) (vT m c t) _ _).2.2 _ Set.univ _)
        isplitl [H0]; · iexact H0
        isplitl [H1]; · iexact H1
        isplitl [H2]; · iexact H2
        isplitl [H3]; · iexact H3
        isplitl [HA]; · iexact HA
        isplitl [HD]; · iexact HD
        iintro ⟨H0, H1, H2, H3, ⟨%fa, HA⟩, ⟨%fd, HD⟩⟩
        isplitl [HA HD Hg]
        · isplitl [HA HD]
          · isplitl [HA]
            · unfold owns; iexists _; isplitr
              swap; · iexact HA
              ipureintro; exact add_acc c _ _ _ _ _ _ _ _ _ _ _ _ _ Hr Ha He _ _ _ _ _ _ _
            · unfold owns; iexists _; isplitr
              swap; · iexact HD
              ipureintro; exact add_den c _ _ _ _ _ _ _ _ _ _ _ _ _ Hr Ha He _ _ _ _ _ _ _
          iexact Hg
        isplitl [Ho]; · iexact Ho
        isplitl [H0]; · iexact H0
        isplitl [H1]; · iexact H1
        isplitl [H2]; · iexact H2
        iexists _; iexact H3
      · -- a key tile above the diagonal, not the last: the body does nothing
        have Ha : ¬adds (grid0.coords t) := fun h => ha ((adds_iff t).mp h)
        rw [sumsAt_pos m c t hz, step_skip m c t _ Hr Ha]
        iintro ⟨⟨⟨HA, HD⟩, Hg⟩, Ho, ⟨%d0, H0⟩, ⟨%d1, H1⟩, ⟨%d2, H2⟩, ⟨%d3, H3⟩⟩
        iapply (runSkip c (grid0.coords t) _ _ _ _ _ _ _ _ _ _ _ _ Hr Ha He Set.univ _)
        isplitl [HA HD Hg]
        · isplitl [HA HD]
          · isplitl [HA]; · iexact HA
            iexact HD
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the running sums' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HA, HD⟩, Hg⟩
  isplitl [HA HD]
  · isplitl [HA]; · iexists _; iexact HA
    iexists _; iexact HD
  iexact Hg

set_option backward.isDefEq.respectTransparency.types false in
/-- Every weakly fair execution of the program terminates, every array of the pipeline ending at what the proof data
    computes and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  Second-order polynomial attention under a causal mask, with a running-sum normaliser, as ONE function of the three
  argument arrays q, k, v : [2, 16, 2048, 64] over the extended reals. For batch b, head h, query row R and key row C the
  score is s = Σₑ (q[b,h,R,e] · 1/8) · k[b,h,C,e]; its weight is w = (1 + s) + (1/2 · s) · s when C ≤ R and 0 otherwise;
  the result is (Σ_C w · v[b,h,C,d]) / (Σ_C w + ε). The four constants are kept as the words both programs print.
  Below it, the same quantities for one 512 × 512 tile of the score matrix (query tile qi, key tile kj), which is what the
  kernel computes at a grid point.
-/
import Idealize.ShloMosaic.PureOps.Ideal
import Idealize.ShloMosaic.Lib.ValueIdx

noncomputable section

open scoped BigOperators

namespace Cert.Spec

open Idealize.ShloMosaic Idealize.ShloMosaic.ValueIdx

abbrev SQ : Shape := ⟨4, ![2, 16, 2048, 64]⟩
abbrev STile : Shape := ⟨3, ![1, 512, 64]⟩

/-- 64^(-1/2) = 1/8, the word both programs multiply q by. -/
abbrev cScale : EReal := Ideal.ofBits .f32 0x3E000000#32
abbrev cOne : EReal := Ideal.ofBits .f32 0x3F800000#32
abbrev cHalf : EReal := Ideal.ofBits .f32 0x3F000000#32
/-- The normaliser's offset (the f32 nearest 10⁻⁶), the same word on both sides. -/
abbrev cEps : EReal := Ideal.ofBits .f32 0x358637BD#32

/-- The second-order expansion of the exponential, in the association both programs use. -/
def poly (s : EReal) : EReal := (cOne + s) + (cHalf * s) * s

def score (Q K : SQ.Idx → EReal) (b : Fin 2) (h : Fin 16) (R C : Fin 2048) : EReal :=
  ∑ e : Fin 64, (Q (ix4 b h R e) * cScale) * K (ix4 b h C e)

def weight (Q K : SQ.Idx → EReal) (b : Fin 2) (h : Fin 16) (R C : Fin 2048) : EReal :=
  if C.val ≤ R.val then poly (score Q K b h R C) else 0

def numer (Q K V : SQ.Idx → EReal) (b : Fin 2) (h : Fin 16) (R : Fin 2048) (d : Fin 64) : EReal :=
  ∑ C : Fin 2048, weight Q K b h R C * V (ix4 b h C d)

def denom (Q K : SQ.Idx → EReal) (b : Fin 2) (h : Fin 16) (R : Fin 2048) : EReal :=
  ∑ C : Fin 2048, weight Q K b h R C

/-- The result at one element. -/
def out (Q K V : SQ.Idx → EReal) (b : Fin 2) (h : Fin 16) (R : Fin 2048) (d : Fin 64) : EReal :=
  Ideal.div (numer Q K V b h R d) (denom Q K b h R + cEps)

/-- The result array: `out` at every element. -/
def result (Q K V : SQ.Idx → EReal) : SQ.Idx → EReal := fun i => out Q K V (i 0) (i 1) (i 2) (i 3)

theorem result_ix4 (Q K V : SQ.Idx → EReal) (b : Fin 2) (h : Fin 16) (R : Fin 2048) (d : Fin 64) :
    result Q K V (ix4 b h R d) = out Q K V b h R d := rfl

/-! ## One tile -/

/-- The score of local query row r against local key row c, from the two tiles. -/
def tileScore (q k : STile.Idx → EReal) (r c : Fin 512) : EReal :=
  ∑ e : Fin 64, (q (ix3 (0 : Fin 1) r e) * cScale) * k (ix3 (0 : Fin 1) c e)

/-- Its weight: the mask compares the GLOBAL rows 512·qi + r and 512·kj + c. -/
def tileWeight (qi kj : Fin 4) (q k : STile.Idx → EReal) (r c : Fin 512) : EReal :=
  if 512 * kj.val + c.val ≤ 512 * qi.val + r.val then poly (tileScore q k r c) else 0

end Cert.Spec

end
-- ==== Proof.Tile.lean ====
/-
  What the body's pure terms compute, read at one element over the extended reals: the reset values are zero; the
  masked weights of a tile; one step of the weighted sum of value rows; one step of the normaliser; the quotient.
-/
import proofs.«144033_j29240137351228_1_alg».proof.Proof.Gen.KernelIdeal.Skeleton
import proofs.«144033_j29240137351228_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Spec

/-! ## Column forms of the layout operations -/

section Columns
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The reset values -/

theorem zeroAcc_apply (r : Fin 512) (d : Fin 64) : (k0_pay1 : FVec Ideal S512x64 .f32) (ix2 r d) = 0 := by
  unfold k0_pay1
  rw [shapeCast_self]
  exact Ideal.ofBits_zero_f32

theorem zeroDen_apply (r : Fin 512) : (k0_pay2 : FVec Ideal S512x1 .f32) (ix2 r (0 : Fin 1)) = 0 := by
  unfold k0_pay2
  rw [shapeCast_self]
  exact Ideal.ofBits_zero_f32

/-! ## The quotient and the normaliser's step -/

/-- The stored quotient. -/
theorem quotient_apply (acc : Vec Ideal S512x64 .f32) (den : Vec Ideal S512x1 .f32) (r : Fin 512) (d : Fin 64) :
    k0_pay4 (F := Ideal) acc den (ix3 (0 : Fin 1) r d) = Ideal.div (acc (ix2 r d)) (den (ix2 r (0 : Fin 1)) + cEps) := by
  unfold k0_pay4
  refine (shapeCast_ab_1ab_apply _ _ (0 : Fin 1) r d).trans ?_
  rw [divf_apply]
  refine congrArg (Ideal.div (acc (ix2 r d))) ?_
  exact broadcastTo_a1_ab_apply _ _ r d

/-- The row sum of a 512 × 512 tile, as the lane reduction prints it. -/
theorem rowSum_apply (A : FVec Ideal S512x512 .f32) (h : S512x512.Reduces [1] S512)
    (hacc : (0x00000000#32 : BitVec 32) = FKind.add.neutral .f32 (.inl rfl)) (r : Fin 512) :
    multiReduction .add [1] S512 A 0x00000000#32 h (.inl rfl) hacc (ix1 r) = ∑ c : Fin 512, A (ix2 r c) := by
  refine (Ideal.multiReduction_add_single A 0x00000000#32 h (.inl rfl) hacc (ix1 r)).trans ?_
  refine Finset.sum_congr rfl fun c _ => congrArg A ?_
  exact funext fun a => Fin.ext (by match a with | ⟨0, _⟩ => rfl | ⟨1, _⟩ => rfl)

/-- One step of the normaliser: what was there plus the row's weights. -/
theorem denStep_apply (A : FVec Ideal S512x512 .f32) (den : Vec Ideal S512x1 .f32) (r : Fin 512) :
    k0_pay3 (F := Ideal) A den (ix2 r (0 : Fin 1)) = den (ix2 r (0 : Fin 1)) + ∑ c : Fin 512, A (ix2 r c) := by
  unfold k0_pay3
  rw [shapeCast_self, addf_apply]
  refine congrArg (den (ix2 r (0 : Fin 1)) + ·) ?_
  refine (shapeCast_a_a1_apply _ _ r (0 : Fin 1)).trans ?_
  exact rowSum_apply A _ _ r

/-! ## The first product: the scaled query tile against the transposed key tile -/

theorem lhs_qk_0 (i : S512x512.Idx) (p : dot_S512x64_S64x512_S512x512_1_0_0_1_n_n.contr.Idx) :
    (dot_S512x64_S64x512_S512x512_1_0_0_1_n_n.lhsIdx i p 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_qk_1 (i : S512x512.Idx) (p : dot_S512x64_S64x512_S512x512_1_0_0_1_n_n.contr.Idx) :
    (dot_S512x64_S64x512_S512x512_1_0_0_1_n_n.lhsIdx i p 1).val = (p ⟨0, by decide⟩).val :=
  dot_S512x64_S64x512_S512x512_1_0_0_1_n_n.lhsIdx_val_of_single rfl i p
theorem rhs_qk_0 (i : S512x512.Idx) (p : dot_S512x64_S64x512_S512x512_1_0_0_1_n_n.contr.Idx) :
    (dot_S512x64_S64x512_S512x512_1_0_0_1_n_n.rhsIdx i p 0).val = (p ⟨0, by decide⟩).val :=
  dot_S512x64_S64x512_S512x512_1_0_0_1_n_n.rhsIdx_val_of_single rfl i p
theorem rhs_qk_1 (i : S512x512.Idx) (p : dot_S512x64_S64x512_S512x512_1_0_0_1_n_n.contr.Idx) :
    (dot_S512x64_S64x512_S512x512_1_0_0_1_n_n.rhsIdx i p 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- A 512 × 64 matrix times a 64 × 512 one, into zero, at (r, c): the sum over the shared index. -/
theorem matmulQK_apply (L : FVec Ideal S512x64 .bf16) (R : FVec Ideal S64x512 .bf16) (r c : Fin 512) :
    matmul dot_S512x64_S64x512_S512x512_1_0_0_1_n_n none L R (constant (F := Ideal) S512x512 .f32 0x00000000#32) (ix2 r c)
      = ∑ e : Fin 64, L (ix2 r e) * R (ix2 e c) := by
  simp only [matmul]
  rw [Ideal.matmul_constant_zero_apply, ← Equiv.sum_comp (contrEquiv1 dot_S512x64_S64x512_S512x512_1_0_0_1_n_n 64 rfl rfl).symm]
  refine Finset.sum_congr rfl fun e _ => ?_
  have hk := contrEquiv1_symm_val dot_S512x64_S64x512_S512x512_1_0_0_1_n_n 64 rfl rfl e
  have el : dot_S512x64_S64x512_S512x512_1_0_0_1_n_n.lhsIdx (ix2 r c) ((contrEquiv1 dot_S512x64_S64x512_S512x512_1_0_0_1_n_n 64 rfl rfl).symm e) = ix2 r e := funext fun a => Fin.ext (by
    match a with
    | ⟨0, _⟩ => exact lhs_qk_0 _ _
    | ⟨1, _⟩ => exact (lhs_qk_1 _ _).trans hk)
  have er : dot_S512x64_S64x512_S512x512_1_0_0_1_n_n.rhsIdx (ix2 r c) ((contrEquiv1 dot_S512x64_S64x512_S512x512_1_0_0_1_n_n 64 rfl rfl).symm e) = ix2 e c := funext fun a => Fin.ext (by
    match a with
    | ⟨0, _⟩ => exact (rhs_qk_0 _ _).trans hk
    | ⟨1, _⟩ => exact rhs_qk_1 _ _)
  rw [el, er]

/-- The first product at (r, c) is the tile's score: the left operand is the query tile scaled, the right one the key
    tile transposed, each through the cast that drops the tile's leading unit axis. -/
theorem score_apply (q k : Vec Ideal S1x512x64 .f32) (hc : S1x512x64.ShapeCasts S512x64)
    (hb : FTy.bits .bf16 < FTy.bits .f32) (ht : S512x64.Transposes [1, 0] S64x512) (r c : Fin 512) :
    matmul dot_S512x64_S64x512_S512x512_1_0_0_1_n_n none
        (truncf .bf16 (mulf (shapeCast S512x64 q hc) (broadcast S512x64 (Scalar.ofBits (F := Ideal) .f32 0x3E000000#32))) hb)
        (transpose S64x512 [1, 0] (truncf .bf16 (shapeCast S512x64 k hc) hb) ht)
        (constant (F := Ideal) S512x512 .f32 0x00000000#32) (ix2 r c)
      = tileScore q k r c := by
  refine (matmulQK_apply _ _ r c).trans ?_
  unfold tileScore
  refine Finset.sum_congr rfl fun e _ => ?_
  rw [truncf_apply, mulf_apply, broadcast_apply, shapeCast_1ab_ab_apply q hc r e, transpose_ix2_apply _ ht e c,
    truncf_apply, shapeCast_1ab_ab_apply k hc c e]
  rfl

/-! ## The mask -/

/-- The global row of local row `r` of tile `t`, as the body computes it in 32-bit words: no wrap. -/
theorem rowWord (t : Fin 4) (r : Fin 512) :
    IntOp.addi (Scalar.muli (BitVec.ofNat 32 t.val) 512#32) (BitVec.ofNat 32 r.val) = BitVec.ofNat 32 (512 * t.val + r.val) := by
  show BitVec.ofNat 32 t.val * 512#32 + BitVec.ofNat 32 r.val = _
  apply BitVec.eq_of_toNat_eq
  rw [BitVec.toNat_add, BitVec.toNat_mul, BitVec.toNat_ofNat, BitVec.toNat_ofNat, BitVec.toNat_ofNat, BitVec.toNat_ofNat]
  have := t.isLt; have := r.isLt
  omega

/-- Signed comparison of two small words is comparison of the numbers. -/
theorem sge_words (a b : ℕ) (ha : a < 2048) (hb : b < 2048) :
    IntOp.cmpi .sge (BitVec.ofNat 32 a) (BitVec.ofNat 32 b) = 1#1 ↔ b ≤ a := by
  have ea : (BitVec.ofNat 32 a).toNat = a := by rw [BitVec.toNat_ofNat]; omega
  have eb : (BitVec.ofNat 32 b).toNat = b := by rw [BitVec.toNat_ofNat]; omega
  rw [StableHlo.Predicate.sge_iff_toNat (by omega) (by omega), ea, eb]

/-- The select of the body at (r, c), over any matrix `M` of scores: the polynomial of the score where the key's
    global row is at most the query's, zero elsewhere. -/
theorem masked_apply (qi kj : Fin 4) (M : FVec Ideal S512x512 .f32) (h0 : S512x512.Iotas .tc 32 [0])
    (h1 : S512x512.Iotas .tc 32 [1]) (r c : Fin 512) :
    select
        (cmpi .sge
          (addi (broadcast S512x512 (Scalar.muli (BitVec.ofNat 32 qi.val) 512#32)) (iota .tc S512x512 32 [0] h0))
          (addi (broadcast S512x512 (Scalar.muli (BitVec.ofNat 32 kj.val) 512#32)) (iota .tc S512x512 32 [1] h1)))
        (addf (addf (broadcast S512x512 (Scalar.ofBits (F := Ideal) .f32 0x3F800000#32)) M)
          (mulf (mulf (broadcast S512x512 (Scalar.ofBits (F := Ideal) .f32 0x3F000000#32)) M) M))
        (broadcast S512x512 (Scalar.ofBits (F := Ideal) .f32 0x00000000#32)) (ix2 r c)
      = if 512 * kj.val + c.val ≤ 512 * qi.val + r.val then poly (M (ix2 r c)) else 0 := by
  have hq : (addi (broadcast S512x512 (Scalar.muli (BitVec.ofNat 32 qi.val) 512#32)) (iota .tc S512x512 32 [0] h0)) (ix2 r c)
      = BitVec.ofNat 32 (512 * qi.val + r.val) := by
    show IntOp.addi (Scalar.muli (BitVec.ofNat 32 qi.val) 512#32) (iota .tc S512x512 32 [0] h0 (ix2 r c)) = _
    rw [iota_single_apply]
    exact rowWord qi r
  have hk : (addi (broadcast S512x512 (Scalar.muli (BitVec.ofNat 32 kj.val) 512#32)) (iota .tc S512x512 32 [1] h1)) (ix2 r c)
      = BitVec.ofNat 32 (512 * kj.val + c.val) := by
    show IntOp.addi (Scalar.muli (BitVec.ofNat 32 kj.val) 512#32) (iota .tc S512x512 32 [1] h1 (ix2 r c)) = _
    rw [iota_single_apply]
    exact rowWord kj c
  have hbit : (cmpi .sge
        (addi (broadcast S512x512 (Scalar.muli (BitVec.ofNat 32 qi.val) 512#32)) (iota .tc S512x512 32 [0] h0))
        (addi (broadcast S512x512 (Scalar.muli (BitVec.ofNat 32 kj.val) 512#32)) (iota .tc S512x512 32 [1] h1))) (ix2 r c) = 1#1
      ↔ 512 * kj.val + c.val ≤ 512 * qi.val + r.val := by
    show IntOp.cmpi .sge _ _ = 1#1 ↔ _
    rw [hq, hk]
    have := qi.isLt; have := kj.isLt; have := r.isLt; have := c.isLt
    exact sge_words _ _ (by omega) (by omega)
  rw [select_apply]
  by_cases hle : 512 * kj.val + c.val ≤ 512 * qi.val + r.val
  · rw [if_pos hle, hbit.2 hle, select_one]
    rfl
  · rw [if_neg hle, eq_zero_of_ne_one (fun h => hle (hbit.1 h)), select_zero]
    exact Ideal.ofBits_zero_f32

/-- The masked weights of the tile (qi, kj). -/
theorem weights_apply (qi kj : Fin 4) (q k : Vec Ideal S1x512x64 .f32) (r c : Fin 512) :
    k0_pay5 (F := Ideal) (BitVec.ofNat 32 qi.val) (BitVec.ofNat 32 kj.val) q k (ix2 r c) = tileWeight qi kj q k r c := by
  unfold k0_pay5
  refine (masked_apply qi kj _ _ _ r c).trans ?_
  unfold tileWeight
  rw [score_apply q k _ _ _ r c]

/-! ## The second product: weights against the value tile -/

theorem lhs_wv_0 (i : S512x64.Idx) (p : dot_S512x512_S512x64_S512x64_1_0_0_1_n_n.contr.Idx) :
    (dot_S512x512_S512x64_S512x64_1_0_0_1_n_n.lhsIdx i p 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_wv_1 (i : S512x64.Idx) (p : dot_S512x512_S512x64_S512x64_1_0_0_1_n_n.contr.Idx) :
    (dot_S512x512_S512x64_S512x64_1_0_0_1_n_n.lhsIdx i p 1).val = (p ⟨0, by decide⟩).val :=
  dot_S512x512_S512x64_S512x64_1_0_0_1_n_n.lhsIdx_val_of_single rfl i p
theorem rhs_wv_0 (i : S512x64.Idx) (p : dot_S512x512_S512x64_S512x64_1_0_0_1_n_n.contr.Idx) :
    (dot_S512x512_S512x64_S512x64_1_0_0_1_n_n.rhsIdx i p 0).val = (p ⟨0, by decide⟩).val :=
  dot_S512x512_S512x64_S512x64_1_0_0_1_n_n.rhsIdx_val_of_single rfl i p
theorem rhs_wv_1 (i : S512x64.Idx) (p : dot_S512x512_S512x64_S512x64_1_0_0_1_n_n.contr.Idx) :
    (dot_S512x512_S512x64_S512x64_1_0_0_1_n_n.rhsIdx i p 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- A 512 × 512 matrix times a 512 × 64 one, into zero, at (r, d): the sum over the shared index. -/
theorem matmulWV_apply (L : FVec Ideal S512x512 .bf16) (R : FVec Ideal S512x64 .bf16) (r : Fin 512) (d : Fin 64) :
    matmul dot_S512x512_S512x64_S512x64_1_0_0_1_n_n none L R (constant (F := Ideal) S512x64 .f32 0x00000000#32) (ix2 r d)
      = ∑ c : Fin 512, L (ix2 r c) * R (ix2 c d) := by
  simp only [matmul]
  rw [Ideal.matmul_constant_zero_apply, ← Equiv.sum_comp (contrEquiv1 dot_S512x512_S512x64_S512x64_1_0_0_1_n_n 512 rfl rfl).symm]
  refine Finset.sum_congr rfl fun c _ => ?_
  have hk := contrEquiv1_symm_val dot_S512x512_S512x64_S512x64_1_0_0_1_n_n 512 rfl rfl c
  have el : dot_S512x512_S512x64_S512x64_1_0_0_1_n_n.lhsIdx (ix2 r d) ((contrEquiv1 dot_S512x512_S512x64_S512x64_1_0_0_1_n_n 512 rfl rfl).symm c) = ix2 r c := funext fun a => Fin.ext (by
    match a with
    | ⟨0, _⟩ => exact lhs_wv_0 _ _
    | ⟨1, _⟩ => exact (lhs_wv_1 _ _).trans hk)
  have er : dot_S512x512_S512x64_S512x64_1_0_0_1_n_n.rhsIdx (ix2 r d) ((contrEquiv1 dot_S512x512_S512x64_S512x64_1_0_0_1_n_n 512 rfl rfl).symm c) = ix2 c d := funext fun a => Fin.ext (by
    match a with
    | ⟨0, _⟩ => exact (rhs_wv_0 _ _).trans hk
    | ⟨1, _⟩ => exact rhs_wv_1 _ _)
  rw [el, er]

/-- One step of the weighted sum: what was there plus the tile's weights against the value tile. -/
theorem accStep_apply (a1 a2 : BitVec 32) (q k v : Vec Ideal S1x512x64 .f32) (acc : Vec Ideal S512x64 .f32) (r : Fin 512) (d : Fin 64) :
    k0_pay6 (F := Ideal) a1 a2 q k v acc (ix2 r d)
      = acc (ix2 r d) + ∑ c : Fin 512, k0_pay5 (F := Ideal) a1 a2 q k (ix2 r c) * v (ix3 (0 : Fin 1) c d) := by
  unfold k0_pay6
  rw [shapeCast_self, addf_apply]
  refine congrArg (acc (ix2 r d) + ·) ?_
  refine (matmulWV_apply _ _ r d).trans ?_
  refine Finset.sum_congr rfl fun c _ => ?_
  rw [truncf_apply, truncf_apply]
  exact congrArg (k0_pay5 (F := Ideal) a1 a2 q k (ix2 r c) * ·) (shapeCast_1ab_ab_apply v _ c d)

end Cert.KernelIdeal.Tile

end
-- ==== Proof.Blocks.lean ====
/-
  Where the pipeline's blocks sit in the arrays. Point t of the 32 × 4 × 4 grid is head bh = t / 16, query tile
  qi = t / 4 % 4, key tile kj = t % 4. The query and output windows' block at t is rows 512·qi … of head bh; the key
  and value windows' is rows 512·min(kj, qi) … (the index map clamps the key tile to the diagonal). The three arrays the
  windows read are the arguments reshaped [2, 16, 2048, 64] → [32, 2048, 64] (head bh = 16·b + h), and the result is the
  output array reshaped back. Here each of these is read at one element.
-/
import proofs.«144033_j29240137351228_1_alg».proof.Proof.Gen.KernelIdeal.Frame
import proofs.«144033_j29240137351228_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-! ## The index maps, decided once over the grid -/

/-- The query window's block index at point t: head t / 16, query tile t / 4 % 4. -/
theorem idx_q : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, _)

/-- The key window's: the key tile clamped to the query tile. -/
theorem idx_k : ∀ t : Fin cfg0.N, win0_1.index t (0 : Fin 3) = t.val / 16
    ∧ win0_1.index t (1 : Fin 3) = min (t.val % 4) (t.val / 4 % 4) ∧ win0_1.index t (2 : Fin 3) = 0 :=
  (by decide +kernel : ∀ t : Fin grid0.N, _)

/-- The value window's: the same. -/
theorem idx_v : ∀ t : Fin cfg0.N, win0_2.index t (0 : Fin 3) = t.val / 16
    ∧ win0_2.index t (1 : Fin 3) = min (t.val % 4) (t.val / 4 % 4) ∧ win0_2.index t (2 : Fin 3) = 0 :=
  (by decide +kernel : ∀ t : Fin grid0.N, _)

/-- The output window's: as the query window's. -/
theorem idx_o : ∀ t : Fin cfg0.N, win0_3.index t (0 : Fin 3) = t.val / 16 ∧ win0_3.index t (1 : Fin 3) = t.val / 4 % 4
    ∧ win0_3.index t (2 : Fin 3) = 0 :=
  (by decide +kernel : ∀ t : Fin grid0.N, _)

/-- The point's coordinates, as numbers. -/
theorem coords_val : ∀ t : Fin cfg0.N, ((grid0.coords t) 1).val = t.val / 4 % 4 ∧ ((grid0.coords t) 2).val = t.val % 4 :=
  (by decide +kernel : ∀ t : Fin grid0.N, _)

/-! ## The arrays the windows read: the arguments, reshaped -/

/-- The query window's array is the first argument with batch and head merged. -/
theorem arr_q (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- The key window's array is the second argument with batch and head merged. -/
theorem arr_k (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

/-- The value window's array is the third argument with batch and head merged. -/
theorem arr_v (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

omit m in
/-- Merging batch and head keeps the row-major position: element (16·b + h, R, e) of the merged array is element
    (b, h, R, e) of the argument. -/
theorem merged_apply (x : S2x16x2048x64.Idx → EReal) (b : Fin 2) (h : Fin 16) (R : Fin 2048) (e : Fin 64) (bh : Fin 32)
    (hbh : bh.val = 16 * b.val + h.val) :
    shapeCast S32x2048x64 x shapeCasts_S2x16x2048x64_S32x2048x64 (ix3 bh R e) = x (ix4 b h R e) :=
  shapeCast_apply x _ _ _ (by
    rw [Shape.rowMajor_val_four, Shape.rowMajor_val_three]
    show ((b.val * 16 + h.val) * 2048 + R.val) * 64 + e.val = (bh.val * 2048 + R.val) * 64 + e.val
    omega)

omit m in
/-- Splitting the head axis back: element (b, h, R, d) of the split array is element (16·b + h, R, d) of the merged one. -/
theorem split_apply (y : S32x2048x64.Idx → EReal) (b : Fin 2) (h : Fin 16) (R : Fin 2048) (d : Fin 64) (bh : Fin 32)
    (hbh : bh.val = 16 * b.val + h.val) :
    shapeCast S2x16x2048x64 y shapeCasts_S32x2048x64_S2x16x2048x64 (ix4 b h R d) = y (ix3 bh R d) :=
  shapeCast_apply y _ _ _ (by
    rw [Shape.rowMajor_val_four, Shape.rowMajor_val_three]
    show (bh.val * 2048 + R.val) * 64 + d.val = ((b.val * 16 + h.val) * 2048 + R.val) * 64 + d.val
    omega)

/-! ## Where a block's element sits in its array -/

omit m in
/-- A point is below 512. -/
theorem point_lt (t : Fin cfg0.N) : t.val < 512 := lt_of_lt_of_eq t.isLt N_0

omit m in
/-- Element (r, e) of the query window's block at t is row 512·qi + r of head t / 16. -/
theorem qBlock_emb (t : Fin cfg0.N) (r : Fin 512) (e : Fin 64) (bh : Fin 32) (R : Fin 2048)
    (hbh : bh.val = t.val / 16) (hR : R.val = 512 * (t.val / 4 % 4) + r.val) :
    ((cfg0.win 0).blk t).view.emb (ix3 (0 : Fin 1) r e : S1x512x64.Idx) = (ix3 bh R e : S32x2048x64.Idx) := by
  obtain ⟨e0, e1, e2⟩ := idx_q t
  funext a; apply Fin.ext
  match a with
  | ⟨0, _⟩ => show win0_0.index t (0 : Fin 3) * 1 + 1 * 0 = bh.val; omega
  | ⟨1, _⟩ => show win0_0.index t (1 : Fin 3) * 512 + 1 * r.val = R.val; omega
  | ⟨2, _⟩ => show win0_0.index t (2 : Fin 3) * 64 + 1 * e.val = e.val; omega

omit m in
/-- Element (r, e) of the key window's block at t is row 512·min(kj, qi) + r of head t / 16. -/
theorem kBlock_emb (t : Fin cfg0.N) (r : Fin 512) (e : Fin 64) (bh : Fin 32) (C : Fin 2048)
    (hbh : bh.val = t.val / 16) (hC : C.val = 512 * min (t.val % 4) (t.val / 4 % 4) + r.val) :
    ((cfg0.win 1).blk t).view.emb (ix3 (0 : Fin 1) r e : S1x512x64.Idx) = (ix3 bh C e : S32x2048x64.Idx) := by
  obtain ⟨e0, e1, e2⟩ := idx_k t
  funext a; apply Fin.ext
  match a with
  | ⟨0, _⟩ => show win0_1.index t (0 : Fin 3) * 1 + 1 * 0 = bh.val; omega
  | ⟨1, _⟩ => show win0_1.index t (1 : Fin 3) * 512 + 1 * r.val = C.val; omega
  | ⟨2, _⟩ => show win0_1.index t (2 : Fin 3) * 64 + 1 * e.val = e.val; omega

omit m in
/-- The value window's block sits at the same rows. -/
theorem vBlock_emb (t : Fin cfg0.N) (r : Fin 512) (e : Fin 64) (bh : Fin 32) (C : Fin 2048)
    (hbh : bh.val = t.val / 16) (hC : C.val = 512 * min (t.val % 4) (t.val / 4 % 4) + r.val) :
    ((cfg0.win 2).blk t).view.emb (ix3 (0 : Fin 1) r e : S1x512x64.Idx) = (ix3 bh C e : S32x2048x64.Idx) := by
  obtain ⟨e0, e1, e2⟩ := idx_v t
  funext a; apply Fin.ext
  match a with
  | ⟨0, _⟩ => show win0_2.index t (0 : Fin 3) * 1 + 1 * 0 = bh.val; omega
  | ⟨1, _⟩ => show win0_2.index t (1 : Fin 3) * 512 + 1 * r.val = C.val; omega
  | ⟨2, _⟩ => show win0_2.index t (2 : Fin 3) * 64 + 1 * e.val = e.val; omega

omit m in
/-- An index of the output array is in point t's block iff each coordinate is in the block's range on its axis. -/
theorem mem_oBlock (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- The query tile at point t, element (r, e): row 512·qi + r of head t / 16, that is of batch t / 256 and head t / 16 % 16. -/
theorem qTile_apply (c : Dev nD) (t : Fin cfg0.N) (r : Fin 512) (e : Fin 64) (b : Fin 2) (h : Fin 16) (R : Fin 2048)
    (hb : b.val = t.val / 256) (hh : h.val = t.val / 16 % 16) (hR : R.val = 512 * (t.val / 4 % 4) + r.val) :
    (iblk m c 0 t : Vec Ideal S1x512x64 .f32) (ix3 (0 : Fin 1) r e) = m ((c : Thread nD τ).loc main_arg0) (ix4 b h R e) := by
  have ht := point_lt t
  have hemb := qBlock_emb t r e ⟨t.val / 16, by omega⟩ R rfl hR
  show (V m c main_v0 : S32x2048x64.Idx → EReal) (((cfg0.win 0).blk t).view.emb (ix3 (0 : Fin 1) r e)) = _
  refine (congrArg (V m c main_v0 : S32x2048x64.Idx → EReal) hemb).trans ?_
  rw [arr_q]
  exact merged_apply _ b h R e _ (by show t.val / 16 = 16 * b.val + h.val; omega)

/-- The key tile at point t: rows 512·min(kj, qi) + c. -/
theorem kTile_apply (c : Dev nD) (t : Fin cfg0.N) (r : Fin 512) (e : Fin 64) (b : Fin 2) (h : Fin 16) (C : Fin 2048)
    (hb : b.val = t.val / 256) (hh : h.val = t.val / 16 % 16) (hC : C.val = 512 * min (t.val % 4) (t.val / 4 % 4) + r.val) :
    (iblk m c 1 t : Vec Ideal S1x512x64 .f32) (ix3 (0 : Fin 1) r e) = m ((c : Thread nD τ).loc main_arg1) (ix4 b h C e) := by
  have ht := point_lt t
  have hemb := kBlock_emb t r e ⟨t.val / 16, by omega⟩ C rfl hC
  show (V m c main_v1 : S32x2048x64.Idx → EReal) (((cfg0.win 1).blk t).view.emb (ix3 (0 : Fin 1) r e)) = _
  refine (congrArg (V m c main_v1 : S32x2048x64.Idx → EReal) hemb).trans ?_
  rw [arr_k]
  exact merged_apply _ b h C e _ (by show t.val / 16 = 16 * b.val + h.val; omega)

/-- The value tile at point t: the same rows of the third argument. -/
theorem vTile_apply (c : Dev nD) (t : Fin cfg0.N) (r : Fin 512) (e : Fin 64) (b : Fin 2) (h : Fin 16) (C : Fin 2048)
    (hb : b.val = t.val / 256) (hh : h.val = t.val / 16 % 16) (hC : C.val = 512 * min (t.val % 4) (t.val / 4 % 4) + r.val) :
    (iblk m c 2 t : Vec Ideal S1x512x64 .f32) (ix3 (0 : Fin 1) r e) = m ((c : Thread nD τ).loc main_arg2) (ix4 b h C e) := by
  have ht := point_lt t
  have hemb := vBlock_emb t r e ⟨t.val / 16, by omega⟩ C rfl hC
  show (V m c main_v2 : S32x2048x64.Idx → EReal) (((cfg0.win 2).blk t).view.emb (ix3 (0 : Fin 1) r e)) = _
  refine (congrArg (V m c main_v2 : S32x2048x64.Idx → EReal) hemb).trans ?_
  rw [arr_v]
  exact merged_apply _ b h C e _ (by show t.val / 16 = 16 * b.val + h.val; omega)

/-- Where element (r, d) of the output window's block at point t sits in the output array. -/
theorem oBlock_emb (t : Fin cfg0.N) (r : Fin 512) (d : Fin 64) (bh : Fin 32) (R : Fin 2048)
    (hbh : bh.val = t.val / 16) (hR : R.val = 512 * (t.val / 4 % 4) + r.val) :
    ((cfg0.win 3).blk t).view.emb (ix3 (0 : Fin 1) r d : S1x512x64.Idx) = (ix3 bh R d : S32x2048x64.Idx) := by
  obtain ⟨e0, e1, e2⟩ := idx_o t
  funext a; apply Fin.ext
  match a with
  | ⟨0, _⟩ => show win0_3.index t (0 : Fin 3) * 1 + 1 * 0 = bh.val; omega
  | ⟨1, _⟩ => show win0_3.index t (1 : Fin 3) * 512 + 1 * r.val = R.val; omega
  | ⟨2, _⟩ => show win0_3.index t (2 : Fin 3) * 64 + 1 * d.val = d.val; omega

/-- Every element of the output array is in the block of a point that writes its block back: the point of its head,
    its query tile and the last key tile. -/
theorem oCover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ : ∃ t : Fin cfg0.N, t.val = 16 * (i 0).val + 4 * ((i 1).val / 512) + 3 :=
    ⟨⟨16 * (i 0).val + 4 * ((i 1).val / 512) + 3, lt_of_lt_of_eq (by omega) N_0.symm⟩, rfl⟩
  obtain ⟨e0, e1, e2⟩ := idx_o t
  refine ⟨t, (flush0_3 t).mpr (by omega), ?_⟩
  rw [mem_oBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The result array, after the host's reshape of the output array: element (b, h, R, d) is element (16·b + h, R, d) of
    whatever the proof data say the output array ends holding. -/
theorem result_apply (dats : (p : Fin 1) → (c : Dev nD) → Dat τ (Elt Ideal) Unit ℕ (UR sig nD τ) ℕ (cfgs p) c) (c : Dev nD)
    (b : Fin 2) (h : Fin 16) (R : Fin 2048) (d : Fin 64) (bh : Fin 32) (hbh : bh.val = 16 * b.val + h.val) :
    (Pipeline.afterTail₀ cfgs dats 0 (V0 m) [hostOps1] c main_v4 : S2x16x2048x64.Idx → EReal) (ix4 b h R d)
      = ((dats 0 c).arrAt 3 cfg0.N : S32x2048x64.Idx → EReal) (ix3 bh R d) := by
  have e : (Pipeline.afterTail₀ cfgs dats 0 (V0 m) [hostOps1] c main_v4 : S2x16x2048x64.Idx → EReal)
      = shapeCast S2x16x2048x64 ((dats 0 c).arrAt 3 cfg0.N : S32x2048x64.Idx → EReal) shapeCasts_S32x2048x64_S2x16x2048x64 := by
    unfold Pipeline.afterTail₀
    show StableHlo.after hostOps1 _ (Proc.devRef .tc main_v4) = _
    after_results
    funext i
    show shapeCast S2x16x2048x64 (Pipeline.withArrays spec0 c (V0 m c) (fun w => (dats 0 c).arrAt w cfg0.N)
      (Proc.devRef .tc (Pipeline.arrRef spec0 3))) shapeCasts_S32x2048x64_S2x16x2048x64 i = _
    rw [Pipeline.withArrays_arr spec0 launch0.win.arr_inj c _ _ 3]
  rw [e]
  exact split_apply _ b h R d bh hbh

end Cert.KernelIdeal.Blocks

end
-- ==== Proof.Partial.lean ====
/-
  Partial sums over key rows. The kernel accumulates the numerator and the normaliser one key tile at a time, so both are
  followed as sums over the key rows below a bound n: they grow by one tile's 512 terms at a time, and once the bound has
  passed the query row R every further term is masked to zero, so the partial sum is already the whole sum.
-/
import proofs.«144033_j29240137351228_1_alg».proof.Proof.Spec

noncomputable section

open scoped BigOperators

namespace Cert.Spec

open Idealize.ShloMosaic Idealize.ShloMosaic.ValueIdx

variable (Q K V : SQ.Idx → EReal) (b : Fin 2) (h : Fin 16) (R : Fin 2048) (d : Fin 64)

/-- Key row C's term of the numerator (zero past the array's end, so that it is a function of a natural number). -/
def numTerm (C : ℕ) : EReal := if hC : C < 2048 then weight Q K b h R ⟨C, hC⟩ * V (ix4 b h ⟨C, hC⟩ d) else 0
/-- Key row C's term of the normaliser. -/
def denTerm (C : ℕ) : EReal := if hC : C < 2048 then weight Q K b h R ⟨C, hC⟩ else 0

/-- The numerator over the key rows below n. -/
def numUpTo (n : ℕ) : EReal := ∑ C ∈ Finset.range n, numTerm Q K V b h R d C
/-- The normaliser over the key rows below n. -/
def denUpTo (n : ℕ) : EReal := ∑ C ∈ Finset.range n, denTerm Q K b h R C

theorem numUpTo_zero : numUpTo Q K V b h R d 0 = 0 := by
  unfold numUpTo
  rw [Finset.range_zero, Finset.sum_empty]

theorem denUpTo_zero : denUpTo Q K b h R 0 = 0 := by
  unfold denUpTo
  rw [Finset.range_zero, Finset.sum_empty]

/-- One more key tile: the 512 terms of tile j. -/
theorem numUpTo_tile (j : ℕ) :
    numUpTo Q K V b h R d (512 * (j + 1)) = numUpTo Q K V b h R d (512 * j) + ∑ c : Fin 512, numTerm Q K V b h R d (512 * j + c.val) := by
  unfold numUpTo
  -- 512 · (j + 1) = 512 · j + 512: the rows below the new bound are those below the old one and 512 more
  rw [show 512 * (j + 1) = 512 * j + 512 from Nat.mul_succ 512 j, Finset.sum_range_add]
  exact congrArg (_ + ·) (Finset.sum_range fun c => numTerm Q K V b h R d (512 * j + c))

theorem denUpTo_tile (j : ℕ) :
    denUpTo Q K b h R (512 * (j + 1)) = denUpTo Q K b h R (512 * j) + ∑ c : Fin 512, denTerm Q K b h R (512 * j + c.val) := by
  unfold denUpTo
  rw [show 512 * (j + 1) = 512 * j + 512 from Nat.mul_succ 512 j, Finset.sum_range_add]
  exact congrArg (_ + ·) (Finset.sum_range fun c => denTerm Q K b h R (512 * j + c))

/-- Past the query row every term is masked: the partial sum is the whole numerator. -/
theorem numer_eq_upTo (n : ℕ) (hR : R.val < n) (hn : n ≤ 2048) : numer Q K V b h R d = numUpTo Q K V b h R d n := by
  unfold numer numUpTo
  -- the sum over all 2048 key rows, as a sum over the naturals below 2048
  have hfull : ∑ C : Fin 2048, weight Q K b h R C * V (ix4 b h C d)
      = ∑ C ∈ Finset.range 2048, numTerm Q K V b h R d C := by
    rw [Finset.sum_range]
    refine Finset.sum_congr rfl fun C _ => ?_
    unfold numTerm
    rw [dif_pos C.isLt]
  -- 2048 = n + (2048 - n): the rows below n, then the rest
  have hsplit := Finset.sum_range_add (numTerm Q K V b h R d) n (2048 - n)
  rw [Nat.add_sub_of_le hn] at hsplit
  -- a key row n + C lies past the query row R < n, so its weight is masked to zero
  have htail : ∑ C ∈ Finset.range (2048 - n), numTerm Q K V b h R d (n + C) = 0 := by
    refine Finset.sum_eq_zero fun C _ => ?_
    unfold numTerm
    by_cases hC : n + C < 2048
    · have hmask : ¬ ((⟨n + C, hC⟩ : Fin 2048).val ≤ R.val) := by
        show ¬ (n + C ≤ R.val)
        omega
      rw [dif_pos hC]
      unfold weight
      rw [if_neg hmask, zero_mul]
    · rw [dif_neg hC]
  rw [hfull, hsplit, htail, add_zero]

theorem denom_eq_upTo (n : ℕ) (hR : R.val < n) (hn : n ≤ 2048) : denom Q K b h R = denUpTo Q K b h R n := by
  unfold denom denUpTo
  have hfull : ∑ C : Fin 2048, weight Q K b h R C = ∑ C ∈ Finset.range 2048, denTerm Q K b h R C := by
    rw [Finset.sum_range]
    refine Finset.sum_congr rfl fun C _ => ?_
    unfold denTerm
    rw [dif_pos C.isLt]
  have hsplit := Finset.sum_range_add (denTerm Q K b h R) n (2048 - n)
  rw [Nat.add_sub_of_le hn] at hsplit
  have htail : ∑ C ∈ Finset.range (2048 - n), denTerm Q K b h R (n + C) = 0 := by
    refine Finset.sum_eq_zero fun C _ => ?_
    unfold denTerm
    by_cases hC : n + C < 2048
    · have hmask : ¬ ((⟨n + C, hC⟩ : Fin 2048).val ≤ R.val) := by
        show ¬ (n + C ≤ R.val)
        omega
      rw [dif_pos hC]
      unfold weight
      rw [if_neg hmask]
    · rw [dif_neg hC]
  rw [hfull, hsplit, htail, add_zero]

end Cert.Spec

end
-- ==== Proof.KValue.lean ====
/-
  The kernel's result as one function of its arguments, over the extended reals.
  After the point (head 16·b + h, query tile qi, key tile kj) the two running sums hold, at local row r, the numerator and
  the normaliser of query row R = 512·qi + r summed over the key rows below 512·(min(kj, qi) + 1): a reset starts them at
  the first tile's 512 terms, a tile on or below the diagonal adds its 512 terms, a tile above the diagonal changes nothing
  (induction over the points). At the last key tile the bound has passed R, so the sums are the whole numerator and
  normaliser and the stored tile is the specification's quotient. The stored tiles cover the output array, so it ends as
  that function, and the host's reshape back gives the result array.
-/
import proofs.«144033_j29240137351228_1_alg».proof.Proof.IdealFrame.Obligation
import proofs.«144033_j29240137351228_1_alg».proof.Proof.Tile
import proofs.«144033_j29240137351228_1_alg».proof.Proof.Blocks
import proofs.«144033_j29240137351228_1_alg».proof.Proof.Partial

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Tile Cert.KernelIdeal.Blocks Cert.Spec

variable (m : (ℓ : Loc nD τ sig) → Buf (Elt Ideal) ℓ) (ρ : Dev nD → PrngReg)

/-- The three argument arrays on core c. -/
abbrev Qa (c : Dev nD) : SQ.Idx → EReal := m ((c : Thread nD τ).loc main_arg0)
abbrev Ka (c : Dev nD) : SQ.Idx → EReal := m ((c : Thread nD τ).loc main_arg1)
abbrev Va (c : Dev nD) : SQ.Idx → EReal := m ((c : Thread nD τ).loc main_arg2)

/-! ## One tile's terms -/

section Tile
variable (c : Dev nD) (t : Fin cfg0.N) (b : Fin 2) (h : Fin 16) (qi kj : Fin 4)
  (hb : b.val = t.val / 256) (hh : h.val = t.val / 16 % 16) (hq : qi.val = t.val / 4 % 4) (hk : kj.val = t.val % 4)
  (hle : kj.val ≤ qi.val)

include hq in
theorem qiW_eq : qiW t = BitVec.ofNat 32 qi.val := by
  show BitVec.ofNat 32 ((grid0.coords t) 1).val = _; rw [(coords_val t).1, hq]
include hk in
theorem kjW_eq : kjW t = BitVec.ofNat 32 kj.val := by
  show BitVec.ofNat 32 ((grid0.coords t) 2).val = _; rw [(coords_val t).2, hk]

include hb hh hq hk hle in
/-- A tile on or below the diagonal: its masked weight at local (r, x) is the specification's weight of the global rows. -/
theorem tile_weight (r x : Fin 512) (R C : Fin 2048) (hR : R.val = 512 * qi.val + r.val) (hC : C.val = 512 * kj.val + x.val) :
    k0_pay5 (F := Ideal) (qiW t) (kjW t) (qT m c t) (kT m c t) (ix2 r x) = weight (Qa m c) (Ka m c) b h R C := by
  rw [qiW_eq t qi hq, kjW_eq t kj hk, weights_apply qi kj]
  unfold tileWeight weight
  have hmin : min (t.val % 4) (t.val / 4 % 4) = kj.val := by omega
  have hs : tileScore (qT m c t) (kT m c t) r x = score (Qa m c) (Ka m c) b h R C := by
    unfold tileScore score
    refine Finset.sum_congr rfl fun e _ => ?_
    rw [show (qT m c t) (ix3 (0 : Fin 1) r e) = Qa m c (ix4 b h R e) from qTile_apply m c t r e b h R hb hh (by rw [hR, hq]),
      show (kT m c t) (ix3 (0 : Fin 1) x e) = Ka m c (ix4 b h C e) from kTile_apply m c t x e b h C hb hh (by rw [hC, hmin])]
  rw [hs, hR, hC]

include hb hh hq hk hle in
theorem tile_num (r : Fin 512) (d : Fin 64) (R : Fin 2048) (hR : R.val = 512 * qi.val + r.val) :
    ∑ x : Fin 512, k0_pay5 (F := Ideal) (qiW t) (kjW t) (qT m c t) (kT m c t) (ix2 r x) * (vT m c t) (ix3 (0 : Fin 1) x d)
      = ∑ x : Fin 512, numTerm (Qa m c) (Ka m c) (Va m c) b h R d (512 * kj.val + x.val) := by
  refine Finset.sum_congr rfl fun x _ => ?_
  have hlt : 512 * kj.val + x.val < 2048 := by have := kj.isLt; have := x.isLt; omega
  have hmin : min (t.val % 4) (t.val / 4 % 4) = kj.val := by omega
  rw [tile_weight m c t b h qi kj hb hh hq hk hle r x R ⟨512 * kj.val + x.val, hlt⟩ hR rfl,
    show (vT m c t) (ix3 (0 : Fin 1) x d) = Va m c (ix4 b h ⟨512 * kj.val + x.val, hlt⟩ d) from
      vTile_apply m c t x d b h ⟨512 * kj.val + x.val, hlt⟩ hb hh (by show 512 * kj.val + x.val = _; rw [hmin])]
  unfold numTerm; rw [dif_pos hlt]

include hb hh hq hk hle in
theorem tile_den (r : Fin 512) (R : Fin 2048) (hR : R.val = 512 * qi.val + r.val) :
    ∑ x : Fin 512, k0_pay5 (F := Ideal) (qiW t) (kjW t) (qT m c t) (kT m c t) (ix2 r x)
      = ∑ x : Fin 512, denTerm (Qa m c) (Ka m c) b h R (512 * kj.val + x.val) := by
  refine Finset.sum_congr rfl fun x _ => ?_
  have hlt : 512 * kj.val + x.val < 2048 := by have := kj.isLt; have := x.isLt; omega
  rw [tile_weight m c t b h qi kj hb hh hq hk hle r x R ⟨512 * kj.val + x.val, hlt⟩ hR rfl]
  unfold denTerm; rw [dif_pos hlt]

end Tile

/-! ## The running sums in closed form -/

set_option maxHeartbeats 1600000 in
/-- After position n: both sums over the key rows below 512·(min(kj, qi) + 1). -/
theorem sums_closed (c : Dev nD) : ∀ (n : ℕ) (hn : n < cfg0.N) (b : Fin 2) (h : Fin 16) (qi kj : Fin 4),
    b.val = n / 256 → h.val = n / 16 % 16 → qi.val = n / 4 % 4 → kj.val = n % 4 →
    ∀ (r : Fin 512) (R : Fin 2048), R.val = 512 * qi.val + r.val →
      (∀ d : Fin 64, (sumsAt m c n hn).1 (ix2 r d) = numUpTo (Qa m c) (Ka m c) (Va m c) b h R d (512 * (min kj.val qi.val + 1)))
      ∧ (sumsAt m c n hn).2 (ix2 r (0 : Fin 1)) = denUpTo (Qa m c) (Ka m c) b h R (512 * (min kj.val qi.val + 1)) := by
  intro n
  induction n with
  | zero =>
    intro hn b h qi kj hb hh hq hk r R hR
    have hr : resets (grid0.coords (⟨0, hn⟩ : Fin cfg0.N)) := (resets_iff ⟨0, hn⟩).mpr rfl
    have hk0 : kj.val = 0 := by omega
    have hmin : min kj.val qi.val = 0 := by omega
    rw [show sumsAt m c 0 hn = _ from sumsAt_first m c ⟨0, hn⟩ rfl, step_reset m c _ _ hr, hmin]
    refine ⟨fun d => ?_, ?_⟩
    · show k0_pay6 (F := Ideal) _ _ _ _ _ _ (ix2 r d) = _
      rw [accStep_apply, zeroAcc_apply, zero_add,
        tile_num m c ⟨0, hn⟩ b h qi kj hb hh hq hk (by omega) r d R hR, hk0,
        numUpTo_tile, numUpTo_zero, zero_add]
    · show k0_pay3 (F := Ideal) _ _ (ix2 r (0 : Fin 1)) = _
      rw [denStep_apply, zeroDen_apply, zero_add,
        tile_den m c ⟨0, hn⟩ b h qi kj hb hh hq hk (by omega) r R hR, hk0,
        denUpTo_tile, denUpTo_zero, zero_add]
  | succ n ih =>
    intro hn b h qi kj hb hh hq hk r R hR
    have hN : n + 1 < 512 := lt_of_lt_of_eq hn (show cfg0.N = 512 from N_0)
    rw [show sumsAt m c (n + 1) hn = step m c ⟨n + 1, hn⟩ (sumsAt m c n (Nat.lt_of_succ_lt hn)) from rfl]
    by_cases h0 : (n + 1) % 4 = 0
    · -- a row's first key tile
      have hr : resets (grid0.coords (⟨n + 1, hn⟩ : Fin cfg0.N)) := (resets_iff ⟨n + 1, hn⟩).mpr h0
      have hk0 : kj.val = 0 := by omega
      have hmin : min kj.val qi.val = 0 := by omega
      rw [step_reset m c _ _ hr, hmin]
      refine ⟨fun d => ?_, ?_⟩
      · show k0_pay6 (F := Ideal) _ _ _ _ _ _ (ix2 r d) = _
        rw [accStep_apply, zeroAcc_apply, zero_add,
          tile_num m c ⟨n + 1, hn⟩ b h qi kj hb hh hq hk (by omega) r d R hR, hk0,
          numUpTo_tile, numUpTo_zero, zero_add]
      · show k0_pay3 (F := Ideal) _ _ (ix2 r (0 : Fin 1)) = _
        rw [denStep_apply, zeroDen_apply, zero_add,
          tile_den m c ⟨n + 1, hn⟩ b h qi kj hb hh hq hk (by omega) r R hR, hk0,
          denUpTo_tile, denUpTo_zero, zero_add]
    · have hr : ¬resets (grid0.coords (⟨n + 1, hn⟩ : Fin cfg0.N)) := fun hx => h0 ((resets_iff ⟨n + 1, hn⟩).mp hx)
      -- the position before: same head and query tile, the key tile before
      have hkpos : 0 < kj.val := by omega
      obtain ⟨kp, hkp⟩ : ∃ kp : Fin 4, kp.val = kj.val - 1 := ⟨⟨kj.val - 1, by have := kj.isLt; omega⟩, rfl⟩
      obtain ⟨ihn, ihd⟩ := ih (Nat.lt_of_succ_lt hn) b h qi kp (by omega) (by omega) (by omega) (by omega) r R hR
      by_cases hle : kj.val ≤ qi.val
      · have ha : adds (grid0.coords (⟨n + 1, hn⟩ : Fin cfg0.N)) := (adds_iff ⟨n + 1, hn⟩).mpr (by show (n + 1) % 4 ≤ (n + 1) / 4 % 4; omega)
        have hm1 : min kp.val qi.val + 1 = kj.val := by omega
        have hm2 : min kj.val qi.val = kj.val := by omega
        rw [step_add m c _ _ hr ha, hm2]
        refine ⟨fun d => ?_, ?_⟩
        · show k0_pay6 (F := Ideal) _ _ _ _ _ _ (ix2 r d) = _
          rw [accStep_apply, ihn d, hm1, tile_num m c ⟨n + 1, hn⟩ b h qi kj hb hh hq hk hle r d R hR, numUpTo_tile]
        · show k0_pay3 (F := Ideal) _ _ (ix2 r (0 : Fin 1)) = _
          rw [denStep_apply, ihd, hm1, tile_den m c ⟨n + 1, hn⟩ b h qi kj hb hh hq hk hle r R hR, denUpTo_tile]
      · have ha : ¬adds (grid0.coords (⟨n + 1, hn⟩ : Fin cfg0.N)) := fun hx => by
          have e : (n + 1) % 4 ≤ (n + 1) / 4 % 4 := (adds_iff ⟨n + 1, hn⟩).mp hx
          omega
        have hm : min kp.val qi.val = min kj.val qi.val := by omega
        rw [step_skip m c _ _ hr ha]
        refine ⟨fun d => ?_, ?_⟩
        · rw [ihn d, hm]
        · rw [ihd, hm]

/-! ## The stored tile, the output array, the result -/

/-- At a row's last key tile the stored quotient is the specification's. -/
theorem out_apply (c : Dev nD) (t : Fin cfg0.N) (h3 : t.val % 4 = 3) (b : Fin 2) (h : Fin 16) (qi : Fin 4)
    (hb : b.val = t.val / 256) (hh : h.val = t.val / 16 % 16) (hq : qi.val = t.val / 4 % 4)
    (r : Fin 512) (d : Fin 64) (R : Fin 2048) (hR : R.val = 512 * qi.val + r.val) :
    outAt m c t (ix3 (0 : Fin 1) r d) = out (Qa m c) (Ka m c) (Va m c) b h R d := by
  obtain ⟨k3, hk3⟩ : ∃ k3 : Fin 4, k3.val = 3 := ⟨⟨3, by decide⟩, rfl⟩
  obtain ⟨hnum, hden⟩ := sums_closed m c t.val t.isLt b h qi k3 hb hh hq (by omega) r R hR
  have hmin : min k3.val qi.val = qi.val := by have := qi.isLt; omega
  unfold outAt out
  rw [quotient_apply, hnum d, hden, hmin, ← numer_eq_upTo (Qa m c) (Ka m c) (Va m c) b h R d (512 * (qi.val + 1)) (by have := r.isLt; omega) (by have := qi.isLt; omega),
    ← denom_eq_upTo (Qa m c) (Ka m c) b h R (512 * (qi.val + 1)) (by have := r.isLt; omega) (by have := qi.isLt; omega)]

/-- The output array [32, 2048, 64] as one function: head 16·b + h holds the result's (b, h). -/
def G3 (c : Dev nD) : S32x2048x64.Idx → EReal := fun i =>
  out (Qa m c) (Ka m c) (Va m c)
    ⟨(i 0).val / 16, by have : (i 0).val < 32 := (i 0).isLt; omega⟩ ⟨(i 0).val % 16, by omega⟩
    ⟨(i 1).val, (i 1).isLt⟩ ⟨(i 2).val, (i 2).isLt⟩

theorem G3_apply (c : Dev nD) (bh : Fin 32) (R : Fin 2048) (d : Fin 64) (b : Fin 2) (h : Fin 16)
    (hb : b.val = bh.val / 16) (hh : h.val = bh.val % 16) :
    G3 m c (ix3 bh R d) = out (Qa m c) (Ka m c) (Va m c) b h R d := by
  show out _ _ _ ⟨bh.val / 16, _⟩ ⟨bh.val % 16, _⟩ ⟨R.val, _⟩ ⟨d.val, _⟩ = _
  have e1 : (⟨bh.val / 16, by have := bh.isLt; omega⟩ : Fin 2) = b := Fin.ext hb.symm
  have e2 : (⟨bh.val % 16, by omega⟩ : Fin 16) = h := Fin.ext hh.symm
  rw [e1, e2]

/-- What a point that writes its block back writes is that block of G3. -/
theorem flushed_eq (c : Dev nD) (t : Fin cfg0.N) (h3 : t.val % 4 = 3) :
    (dats m 0 c).flushed 3 t = ((cfg0.win 3).blk t).view.read (Elt Ideal) (G3 m c) := by
  show (cfg0.win 3).cut (grid0.coords t) ((dats m 0 c).after 3 t) = _
  rw [after_o]
  funext j
  show outAt m c t j = G3 m c (((cfg0.win 3).blk t).view.emb j)
  have hN : t.val < 512 := lt_of_lt_of_eq t.isLt (show cfg0.N = 512 from N_0)
  obtain ⟨z, r, d, rfl⟩ : ∃ (z : Fin 1) (r : Fin 512) (d : Fin 64), j = ix3 z r d := ⟨j 0, j 1, j 2, eq_ix3 j⟩
  obtain rfl : z = 0 := Subsingleton.elim _ _
  have hR : 512 * (t.val / 4 % 4) + r.val < 2048 := by have := r.isLt; omega
  rw [oBlock_emb t r d ⟨t.val / 16, by omega⟩ ⟨512 * (t.val / 4 % 4) + r.val, hR⟩ rfl rfl,
    G3_apply m c _ _ _ ⟨t.val / 256, by omega⟩ ⟨t.val / 16 % 16, by omega⟩ (by show t.val / 256 = t.val / 16 / 16; omega) rfl]
  exact out_apply m c t h3 ⟨t.val / 256, by omega⟩ ⟨t.val / 16 % 16, by omega⟩ ⟨t.val / 4 % 4, by omega⟩ rfl rfl rfl r d _ rfl

/-- The output array after the run. -/
theorem final3 (c : Dev nD) : (dats m 0 c).arrAt 3 cfg0.N = G3 m c :=
  (dats m 0 c).arrAt_eq_of_cover 3 (G3 m c) (fun t hf => flushed_eq m c t ((flush0_3 t).mp hf)) oCover

/-- The result array after the host's reshape. -/
theorem result_eq (c : Dev nD) :
    (Pipeline.afterTail₀ cfgs (dats m) 0 (V0 m) [hostOps1] c main_v4 : S2x16x2048x64.Idx → EReal) = result (Qa m c) (Ka m c) (Va m c) := by
  funext i
  obtain ⟨b, h, R, d, rfl⟩ : ∃ (b : Fin 2) (h : Fin 16) (R : Fin 2048) (d : Fin 64), i = ix4 b h R d := ⟨i 0, i 1, i 2, i 3, eq_ix4 i⟩
  rw [result_apply m (dats m) c b h R d ⟨16 * b.val + h.val, by have := b.isLt; have := h.isLt; omega⟩ rfl, final3,
    G3_apply m c _ R d b h (by show b.val = (16 * b.val + h.val) / 16; have := h.isLt; omega) (by show h.val = (16 * b.val + h.val) % 16; have := h.isLt; omega),
    result_ix4]

/-- The run, with the result named: every weakly fair execution ends with the result array at the specification of the
    argument arrays, and the arguments unchanged. -/
theorem run : θ_run defs (onTc (τ := τ) (main (F := Ideal))) ⟨m, fun _ => 0, ρ⟩ (fun r => ∀ c : Dev nD,
      r.2.mem ((c.tc : Thread nD τ).loc main_v4) = result (Qa m c) (Ka m c) (Va m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hp c =>
    ⟨((hp c).2 main_v4 (Pipeline.mem_restRefs_of main_v4 (by decide) (by decide))).trans (result_eq m c),
      ((hp c).2 main_arg0 (Pipeline.mem_restRefs_of main_arg0 (by decide) (by decide))).trans (W_main_arg0 m (dats m) c),
      ((hp c).2 main_arg1 (Pipeline.mem_restRefs_of main_arg1 (by decide) (by decide))).trans (W_main_arg1 m (dats m) c),
      ((hp c).2 main_arg2 (Pipeline.mem_restRefs_of main_arg2 (by decide) (by decide))).trans (W_main_arg2 m (dats m) c)⟩)
    (run_main m ρ)

end Cert.KernelIdeal.KValue

end
-- ==== Proof.RefIndex.lean ====
/-
  The reference's result, read index by index: at every element it is the specification's quotient.
-/
import proofs.«144033_j29240137351228_1_alg».proof.Defs
import proofs.«144033_j29240137351228_1_alg».proof.Proof.Gen.ReferenceIdeal.Run
import proofs.«144033_j29240137351228_1_alg».proof.Proof.Gen.ReferenceIdeal.Read
import proofs.«144033_j29240137351228_1_alg».proof.Proof.Spec
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Cert.Spec

/-! ## The causal mask

The reference builds the lower triangle as the signed comparison "row + 0 ≥ column" of two 32-bit counters. Both
counters are below 2048, far under 2³¹, so the signed comparison is the comparison of the naturals. -/

/-- A row or column number, written as a 32-bit word, is read back unchanged. -/
theorem toNat_word (n : Fin 2048) : (BitVec.ofNat 32 n.val).toNat = n.val := by
  rw [BitVec.toNat_ofNat]
  exact Nat.mod_eq_of_lt (by have := n.isLt; omega)

/-- The mask bit at row R and column C is set exactly when C ≤ R. -/
theorem mask_apply (R C : Fin 2048) :
    Read.val_main_v10 (F := Ideal) (ix2 R C) = if C.val ≤ R.val then 1#1 else 0#1 := by
  rw [Read.val_main_v10_apply, Read.val_main_call0_v4_apply, Read.val_main_call0_v2_apply, Read.val_main_call0_v0_apply,
    Read.val_main_call0_v1_apply, Read.val_main_call0_c_apply, Read.val_main_call0_v3_apply, Read.val_main_v9_apply,
    Read.val_main_c_apply, Read.val_main_call0_v5_apply, Read.val_main_call0_c_0_apply]
  show Scalar.select (IntOp.cmpi .sge (BitVec.ofNat 32 R.val + 0#32) (BitVec.ofNat 32 C.val)) 1#1 0#1 = _
  rw [BitVec.add_zero]
  have hR : (BitVec.ofNat 32 R.val).toNat < 2 ^ 31 := by rw [toNat_word]; have := R.isLt; omega
  have hC : (BitVec.ofNat 32 C.val).toNat < 2 ^ 31 := by rw [toNat_word]; have := C.isLt; omega
  have hiff := StableHlo.Predicate.sge_iff_toNat hR hC
  rw [toNat_word, toNat_word] at hiff
  by_cases hc : C.val ≤ R.val
  · rw [if_pos hc, hiff.mpr hc, select_one]
  · rw [if_neg hc, eq_zero_of_ne_one (fun h1 => hc (hiff.mp h1)), select_zero]

/-! ## The score and its weight -/

theorem lidx_score (b : Fin 2) (h : Fin 16) (R C : Fin 2048) (e : Fin 64) :
    Read.lidx_main_v2 (ix4 b h R C) e = ix4 b h R e :=
  funext fun a => Fin.ext (by match a with | ⟨0, _⟩ => rfl | ⟨1, _⟩ => rfl | ⟨2, _⟩ => rfl | ⟨3, _⟩ => rfl)

theorem ridx_score (b : Fin 2) (h : Fin 16) (R C : Fin 2048) (e : Fin 64) :
    Read.ridx_main_v2 (ix4 b h R C) e = ix4 b h C e :=
  funext fun a => Fin.ext (by match a with | ⟨0, _⟩ => rfl | ⟨1, _⟩ => rfl | ⟨2, _⟩ => rfl | ⟨3, _⟩ => rfl)

/-- The first contraction, q scaled by 1/8 against k over the feature axis, is the specification's score. -/
theorem score_apply (x0 x1 : (⟨S2x16x2048x64, .f32⟩ : BufTy).Contents (Elt Ideal))
    (b : Fin 2) (h : Fin 16) (R C : Fin 2048) :
    Read.val_main_v2 (F := Ideal) x0 x1 (ix4 b h R C) = Spec.score x0 x1 b h R C := by
  rw [Read.val_main_v2_apply]
  unfold Spec.score
  refine Finset.sum_congr rfl fun e _ => ?_
  rw [lidx_score, ridx_score, Read.val_main_v1_apply, Read.val_main_v0_apply, Read.val_main_cst_apply]
  simp only [Ideal.mulf_def, Ideal.ofBits_def]

/-- The polynomial 1 + s + (½ · s) · s of the score, before the mask. -/
theorem poly_apply (x0 x1 : (⟨S2x16x2048x64, .f32⟩ : BufTy).Contents (Elt Ideal))
    (b : Fin 2) (h : Fin 16) (R C : Fin 2048) :
    Read.val_main_v8 (F := Ideal) x0 x1 (ix4 b h R C) = Spec.poly (Spec.score x0 x1 b h R C) := by
  rw [Read.val_main_v8_apply, Read.val_main_v4_apply, Read.val_main_v7_apply, Read.val_main_v6_apply,
    Read.val_main_v3_apply, Read.val_main_v5_apply, Read.val_main_cst_0_apply, Read.val_main_cst_1_apply, score_apply]
  simp only [Ideal.addf_def, Ideal.mulf_def, Ideal.ofBits_def]
  rfl

theorem idx_mask (b : Fin 2) (h : Fin 16) (R C : Fin 2048) :
    Read.idx_main_call1_v1 (ix4 b h R C) = ix2 R C :=
  funext fun a => Fin.ext (by match a with | ⟨0, _⟩ => rfl | ⟨1, _⟩ => rfl)

/-- The masked polynomial is the specification's weight: the polynomial on and below the diagonal, zero above it. -/
theorem weight_apply (x0 x1 : (⟨S2x16x2048x64, .f32⟩ : BufTy).Contents (Elt Ideal))
    (b : Fin 2) (h : Fin 16) (R C : Fin 2048) :
    Read.val_main_v11 (F := Ideal) x0 x1 (ix4 b h R C) = Spec.weight x0 x1 b h R C := by
  rw [Read.val_main_v11_apply, Read.val_main_call1_v1_apply, idx_mask, mask_apply, poly_apply,
    Read.val_main_call1_v2_apply, Read.val_main_call1_v0_apply, Read.val_main_cst_2_apply, Ideal.ofBits_def,
    Ideal.ofBits_zero_f32]
  unfold Spec.weight
  by_cases hc : C.val ≤ R.val
  · rw [if_pos hc, if_pos hc, select_one]
  · rw [if_neg hc, if_neg hc, select_zero]

/-! ## Numerator, denominator, quotient -/

theorem lidx_numer (b : Fin 2) (h : Fin 16) (R : Fin 2048) (d : Fin 64) (C : Fin 2048) :
    Read.lidx_main_v12 (ix4 b h R d) C = ix4 b h R C :=
  funext fun a => Fin.ext (by match a with | ⟨0, _⟩ => rfl | ⟨1, _⟩ => rfl | ⟨2, _⟩ => rfl | ⟨3, _⟩ => rfl)

theorem ridx_numer (b : Fin 2) (h : Fin 16) (R : Fin 2048) (d : Fin 64) (C : Fin 2048) :
    Read.ridx_main_v12 (ix4 b h R d) C = ix4 b h C d :=
  funext fun a => Fin.ext (by match a with | ⟨0, _⟩ => rfl | ⟨1, _⟩ => rfl | ⟨2, _⟩ => rfl | ⟨3, _⟩ => rfl)

/-- The second contraction, the weights against v over the key rows, is the specification's numerator. -/
theorem numer_apply (x0 x1 x2 : (⟨S2x16x2048x64, .f32⟩ : BufTy).Contents (Elt Ideal))
    (b : Fin 2) (h : Fin 16) (R : Fin 2048) (d : Fin 64) :
    Read.val_main_v12 (F := Ideal) x0 x1 x2 (ix4 b h R d) = Spec.numer x0 x1 x2 b h R d := by
  rw [Read.val_main_v12_apply]
  unfold Spec.numer
  refine Finset.sum_congr rfl fun C _ => ?_
  rw [lidx_numer, ridx_numer, weight_apply]

theorem idx_rowsum (b : Fin 2) (h : Fin 16) (R : Fin 2048) (d : Fin 64) (C : Fin 2048) :
    Read.idx_main_v13 (Read.idx_main_v14 (Read.idx_main_v17 (ix4 b h R d))) C = ix4 b h R C :=
  funext fun a => Fin.ext (by match a with | ⟨0, _⟩ => rfl | ⟨1, _⟩ => rfl | ⟨2, _⟩ => rfl | ⟨3, _⟩ => rfl)

/-- The row sum of the weights (started from the zero word) plus ε, spread back over the feature axis, is the
    specification's denominator plus ε. -/
theorem denom_apply (x0 x1 : (⟨S2x16x2048x64, .f32⟩ : BufTy).Contents (Elt Ideal))
    (b : Fin 2) (h : Fin 16) (R : Fin 2048) (d : Fin 64) :
    Read.val_main_v17 (F := Ideal) x0 x1 (ix4 b h R d) = Spec.denom x0 x1 b h R + cEps := by
  rw [Read.val_main_v17_apply, Read.val_main_v16_apply, Read.val_main_v14_apply, Read.val_main_v15_apply,
    Read.val_main_cst_4_apply, Read.val_main_v13_apply, Read.val_main_cst_3_apply]
  simp only [Ideal.addf_def, Ideal.ofBits_def, Ideal.ofBits_zero_f32, zero_add]
  unfold Spec.denom
  refine congrArg (· + cEps) (Finset.sum_congr rfl fun C _ => ?_)
  rw [idx_rowsum, weight_apply]

theorem ref_eq_spec (x0 x1 x2 : (⟨S2x16x2048x64, .f32⟩ : BufTy).Contents (Elt Ideal)) (b : Fin 2) (h : Fin 16) (R : Fin 2048) (d : Fin 64) :
    Cert.ReferenceIdeal.Read.val_main_v18 (F := Ideal) x0 x1 x2 (ix4 b h R d) = Cert.Spec.out x0 x1 x2 b h R d := by
  rw [Read.val_main_v18_apply, numer_apply, denom_apply, Ideal.hostDivf_def]
  rfl

end Cert.ReferenceIdeal.RefValue

end
-- ==== Proof.lean ====
/-
  Causal second-order polynomial attention with a running-sum normaliser: a tiled kernel against its plain reference.
  Over the extended reals both compute, for every batch, head, query row R and feature d,
      (Σ_{C ≤ R} w(R, C) · v[C, d]) / (Σ_{C ≤ R} w(R, C) + ε),   w = (1 + s) + (½·s)·s,   s = Σₑ (q[R, e]·⅛)·k[C, e].
  The reference forms the whole masked weight matrix and contracts it; the kernel walks a grid of 512 × 512 tiles, keeps the
  numerator and the normaliser in two scratch buffers from key tile to key tile, skips the tiles above the diagonal, and
  stores the quotient at a row's last key tile. The two agree because a sum over key rows may be taken tile by tile
  (addition on the extended reals is associative and commutative) and because every term of a skipped tile is masked to
  zero (0 · x = 0 there). No law that needs finite inputs is used.
  The frames: each kernel program runs to the end at every grid point (five control cases of its three guards), leaving its
  arguments untouched; the reference's is its run with the result dropped. The kernel's idealization rewrote nothing.
-/
import proofs.«144033_j29240137351228_1_alg».proof.Defs
import proofs.«144033_j29240137351228_1_alg».proof.Proof.Gen.Kernel
import proofs.«144033_j29240137351228_1_alg».proof.Proof.Gen.KernelIdeal
import proofs.«144033_j29240137351228_1_alg».proof.Proof.Gen.ReferenceIdeal
import proofs.«144033_j29240137351228_1_alg».proof.Proof.Gen.Pre_finite_inputs
import proofs.«144033_j29240137351228_1_alg».proof.Proof.Gen.ReferenceIdeal.Run
import proofs.«144033_j29240137351228_1_alg».proof.Proof.Gen.ReferenceIdeal.Read
import proofs.«144033_j29240137351228_1_alg».proof.Proof.BitsFrame.Obligation
import proofs.«144033_j29240137351228_1_alg».proof.Proof.IdealFrame.Obligation
import proofs.«144033_j29240137351228_1_alg».proof.Proof.KValue
import proofs.«144033_j29240137351228_1_alg».proof.Proof.RefIndex
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel [Cert.Kernel.Facts] [Cert.Pre_finite_inputs.Facts] : Cert.frame_Kernel :=
  fun m ρ _ => Cert.Kernel.Body.frame m ρ

theorem frame_kernelIdeal [Cert.KernelIdeal.Facts] [Cert.Pre_finite_inputs.Facts] : Cert.frame_KernelIdeal :=
  fun m ρ _ => Cert.KernelIdeal.Body.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end with the result array at the specification of the argument arrays, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.result (Cert.KernelIdeal.KValue.Qa m c) (Cert.KernelIdeal.KValue.Ka m c) (Cert.KernelIdeal.KValue.Va m c),
    Cert.KernelIdeal.KValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v18_eq, (hagree c).1, (hagree c).2.1, (hagree c).2.2]
  funext i
  obtain ⟨b, hd, R, d, rfl⟩ : ∃ (b : Fin 2) (hd : Fin 16) (R : Fin 2048) (d : Fin 64), i = ix4 b hd R d := ⟨i 0, i 1, i 2, i 3, eq_ix4 i⟩
  exact Cert.ReferenceIdeal.RefValue.ref_eq_spec _ _ _ b hd R d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
